-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x50x512 : Shape := ⟨3, ![8, 50, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x50x512 : S_.BroadcastsInDim S8x50x512 (![] : Fin 0 → Fin S8x50x512.rank)
  reducesTo_S8x50x512_S_d0_1_2 : S8x50x512.ReducesTo [0, 1, 2] S_
  bcast_S_S512x640 : S_.BroadcastsInDim S512x640 (![] : Fin 0 → Fin S512x640.rank)
  reducesTo_S512x640_S_d0_1 : S512x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S512x640 .f32) (main_arg8 : FVec F S640 .f32) (main_arg9 : FVec F S640x1024 .f32) (main_arg10 : FVec F S1024 .f32) (main_v33 : IVec S_ 1) : IVec S_ 1 :=
  let main_v34 : FVec F S512x640 .f32 := Host.absf main_arg7
  let main_cst_12 : FVec F S_ .f32 := constant S_ .f32 0x7F800000#32
  let main_v35 : FVec F S512x640 .f32 := broadcastInDim S512x640 ![] bcast_S_S512x640 main_cst_12
  let main_v36 : IVec S512x640 1 := cmpf .olt main_v34 main_v35
  let main_c_13 : IVec S_ 1 := constantI S_ 1 1#1
  let main_v37 : IVec S_ 1 := (fun x v => Host.reduce IntOp.andi x v reducesTo_S512x640_S_d0_1 h_S_) main_v36 main_c_13
  let main_v38 : IVec S_ 1 := andi main_v33 main_v37
  let main_v39 : FVec F S640 .f32 := Host.absf main_arg8
  let main_cst_14 : FVec F S_ .f32 := constant S_ .f32 0x7F800000#32
  let main_v40 : FVec F S640 .f32 := broadcastInDim S640 ![] bcast_S_S640 main_cst_14
  let main_v41 : IVec S640 1 := cmpf .olt main_v39 main_v40
  let main_c_15 : IVec S_ 1 := constantI S_ 1 1#1
  let main_v42 : IVec S_ 1 := (fun x v => Host.reduce IntOp.andi x v reducesTo_S640_S_d0 h_S_) main_v41 main_c_15
  let main_v43 : IVec S_ 1 := andi main_v38 main_v42
  let main_v44 : FVec F S640x1024 .f32 := Host.absf main_arg9
  let main_cst_16 : FVec F S_ .f32 := constant S_ .f32 0x7F800000#32
  let main_v45 : FVec F S640x1024 .f32 := broadcastInDim S640x1024 ![] bcast_S_S640x1024 main_cst_16
  let main_v46 : IVec S640x1024 1 := cmpf .olt main_v44 main_v45
  let main_c_17 : IVec S_ 1 := constantI S_ 1 1#1
  let main_v47 : IVec S_ 1 := (fun x v => Host.reduce IntOp.andi x v reducesTo_S640x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S640 .f32) (main_arg5 : FVec F S512x640 .f32) (main_arg6 : FVec F S640 .f32) (main_arg7 : FVec F S512x640 .f32) (main_arg8 : FVec F S640 .f32) (main_arg9 : FVec F S640x1024 .f32) (main_arg10 : FVec F S1024 .f32) (main_v13 : IVec S_ 1) (main_v16 : IVec S512x640 1) : IVec S_ 1 :=
  let main_c_5 : IVec S_ 1 := constantI S_ 1 1#1
  let main_v17 : IVec S_ 1 := (fun x v => Host.reduce IntOp.andi x v reducesTo_S512x640_S_d0_1 h_S_) main_v16 main_c_5
  let main_v18 : IVec S_ 1 := andi main_v13 main_v17
  let main_v19 : FVec F S640 .f32 := Host.absf main_arg4
  let main_cst_6 : FVec F S_ .f32 := constant S_ .f32 0x7F800000#32
  let main_v20 : FVec F S640 .f32 := broadcastInDim S640 ![] bcast_S_S640 main_cst_6
  let main_v21 : IVec S640 1 := cmpf .olt main_v19 main_v20
  let main_c_7 : IVec S_ 1 := constantI S_ 1 1#1
  let main_v22 : IVec S_ 1 := (fun x v => Host.reduce IntOp.andi x v reducesTo_S640_S_d0 h_S_) main_v21 main_c_7
  let main_v23 : IVec S_ 1 := andi main_v18 main_v22
  let main_v24 : FVec F S512x640 .f32 := Host.absf main_arg5
  let main_cst_8 : FVec F S_ .f32 := constant S_ .f32 0x7F800000#32
  let main_v25 : FVec F S512x640 .f32 := broadcastInDim S512x640 ![] bcast_S_S512x640 main_cst_8
  let main_v26 : IVec S512x640 1 := cmpf .olt main_v24 main_v25
  let main_c_9 : IVec S_ 1 := constantI S_ 1 1#1
  let main_v27 : IVec S_ 1 := (fun x v => Host.reduce IntOp.andi x v reducesTo_S512x640_S_d0_1 h_S_) main_v26 main_c_9
  let main_v28 : IVec S_ 1 := andi main_v23 main_v27
  let main_v29 : FVec F S640 .f32 := Host.absf main_arg6
  let main_cst_10 : FVec F S_ .f32 := constant S_ .f32 0x7F800000#32
  let main_v30 : FVec F S640 .f32 := broadcastInDim S640 ![] bcast_S_S640 main_cst_10
  let main_v31 : IVec S640 1 := cmpf .olt main_v29 main_v30
  let main_c_11 : IVec S_ 1 := constantI S_ 1 1#1
  let main_v32 : IVec S_ 1 := (fun x v => Host.reduce IntOp.andi x v reducesTo_S640_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x200x512 .f32) (main_arg1 : FVec F S8x50x512 .f32) (main_arg2 : FVec F S8x200x512 .f32) (main_arg3 : FVec F S512x640 .f32) (main_arg4 : FVec F S640 .f32) (main_arg5 : FVec F S512x640 .f32) (main_arg6 : FVec F S640 .f32) (main_arg7 : FVec F S512x640 .f32) (main_arg8 : FVec F S640 .f32) (main_arg9 : FVec F S640x1024 .f32) (main_arg10 : FVec F S1024 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x50x512 .f32 := Host.absf main_arg1
  let main_cst_0 : FVec F S_ .f32 := constant S_ .f32 0x7F800000#32
  let main_v5 : FVec F S8x50x512 .f32 := broadcastInDim S8x50x512 ![] bcast_S_S8x50x512 main_cst_0
  let main_v6 : IVec S8x50x512 1 := cmpf .olt main_v4 main_v5
  let main_c_1 : IVec S_ 1 := constantI S_ 1 1#1
  let main_v7 : IVec S_ 1 := (fun x v => Host.reduce IntOp.andi x v reducesTo_S8x50x512_S_d0_1_2 h_S_) main_v6 main_c_1
  let main_v8 : IVec S_ 1 := andi main_v3 main_v7
  let main_v9 : FVec F S8x200x512 .f32 := Host.absf main_arg2
  let main_cst_2 : FVec F S_ .f32 := constant S_ .f32 0x7F800000#32
  let main_v10 : FVec F S8x200x512 .f32 := broadcastInDim S8x200x512 ![] bcast_S_S8x200x512 main_cst_2
  let main_v11 : IVec S8x200x512 1 := cmpf .olt main_v9 main_v10
  let main_c_3 : IVec S_ 1 := constantI S_ 1 1#1
  let main_v12 : IVec S_ 1 := (fun x v => Host.reduce IntOp.andi x v reducesTo_S8x200x512_S_d0_1_2 h_S_) main_v11 main_c_3
  let main_v13 : IVec S_ 1 := andi main_v8 main_v12
  let main_v14 : FVec F S512x640 .f32 := Host.absf main_arg3
  let main_cst_4 : FVec F S_ .f32 := constant S_ .f32 0x7F800000#32
  let main_v15 : FVec F S512x640 .f32 := broadcastInDim S512x640 ![] bcast_S_S512x640 main_cst_4
  let main_v16 : IVec S512x640 1 := cmpf .olt main_v14 main_v15
  fn_part1 (F := F) main_arg4 main_arg5 main_arg6 main_arg7 main_arg8 main_arg9 main_arg10 main_v13 main_v16
-- ==== Kernel.lean ====
abbrev S8x200x512 : Shape := ⟨3, ![8, 200, 512]⟩
abbrev S8x50x512 : Shape := ⟨3, ![8, 50, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S8x200x50x1024 : Shape := ⟨4, ![8, 200, 50, 1024]⟩
abbrev S1x8x512 : Shape := ⟨3, ![1, 8, 512]⟩
abbrev S1x50x512 : Shape := ⟨3, ![1, 50, 512]⟩
abbrev S1x8x50x1024 : Shape := ⟨4, ![1, 8, 50, 1024]⟩
abbrev S50x640 : Shape := ⟨2, ![50, 640]⟩
abbrev S400x640 : Shape := ⟨2, ![400, 640]⟩
abbrev S50x512 : Shape := ⟨2, ![50, 512]⟩
abbrev S1x640 : Shape := ⟨2, ![1, 640]⟩
abbrev S8x512 : Shape := ⟨2, ![8, 512]⟩
abbrev S8x640 : Shape := ⟨2, ![8, 640]⟩
abbrev S400x1024 : Shape := ⟨2, ![400, 1024]⟩
abbrev S1x1024 : Shape := ⟨2, ![1, 1024]⟩
abbrev S50x1024 : Shape := ⟨2, ![50, 1024]⟩
abbrev S1x1x50x1024 : Shape := ⟨4, ![1, 1, 50, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S8x200x512, .f32⟩
  | .hbm, ⟨3, _⟩ => ⟨S512x640, .f32⟩
  | .hbm, ⟨4, _⟩ => ⟨S640, .f32⟩
  | .hbm, ⟨5, _⟩ => ⟨S512x640, .f32⟩
  | .hbm, ⟨6, _⟩ => ⟨S640, .f32⟩
  | .hbm, ⟨7, _⟩ => ⟨S512x640, .f32⟩
  | .hbm, ⟨8, _⟩ => ⟨S640, .f32⟩
  | .hbm, ⟨9, _⟩ => ⟨S640x1024, .f32⟩
  | .hbm, ⟨10, _⟩ => ⟨S1024, .f32⟩
  | .hbm, ⟨11, _⟩ => ⟨S512x640, .bf16⟩
  | .hbm, ⟨12, _⟩ => ⟨S512x640, .bf16⟩
  | .hbm, ⟨13, _⟩ => ⟨S512x640, .bf16⟩
  | .hbm, ⟨14, _⟩ => ⟨S640x1024, .bf16⟩
  | .hbm, ⟨15, _⟩ => ⟨S8x200x50x1024, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x50x512, .f32⟩
  | .local _ .vmem, ⟨5, _⟩ => ⟨S1x50x512, .f32⟩
  | .local _ .vmem, ⟨6, _⟩ => ⟨S512x640, .bf16⟩
  | .local _ .vmem, ⟨7, _⟩ => ⟨S640, .f32⟩
  | .local _ .vmem, ⟨8, _⟩ => ⟨S512x640, .bf16⟩
  | .local _ .vmem, ⟨9, _⟩ => ⟨S640, .f32⟩
  | .local _ .vmem, ⟨10, _⟩ => ⟨S512x640, .bf16⟩
  | .local _ .vmem, ⟨11, _⟩ => ⟨S640, .f32⟩
  | .local _ .vmem, ⟨12, _⟩ => ⟨S640x1024, .bf16⟩
  | .local _ .vmem, ⟨13, _⟩ => ⟨S1024, .f32⟩
  | .local _ .vmem, ⟨14, _⟩ => ⟨S1x8x50x1024, .f32⟩
  | .local _ .vmem, ⟨15, _⟩ => ⟨S1x8x50x1024, .f32⟩
  | .local _ .vmem, ⟨16, _⟩ => ⟨S50x640, .f32⟩
  | .local _ .vmem, ⟨17, _⟩ => ⟨S400x640, .bf16⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x50x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S640x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x50x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  bitsLt_bf16_f32 : FTy.bits .bf16 < FTy.bits .f32
  inb_S1x50x512_S1x50x512_0_0_0 : ∀ a, (![0, 0, 0] : Fin 3 → Nat) a + S1x50x512.size a ≤ S1x50x512.size a
  h_S1x50x512 : 0 < S1x50x512.numel
  shapeCasts_S1x50x512_S50x512 : S1x50x512.ShapeCasts S50x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640_S640_0 : ∀ a, (![0] : Fin 1 → Nat) a + S640.size a ≤ S640.size a
  h_S640 : 0 < S640.numel
  shapeCasts_S640_S1x640 : S640.ShapeCasts S1x640
  broadcasts_S1x640_S50x640 : S1x640.Broadcasts S50x640
  inb_S50x640_S50x640_0_0 : ∀ a, (![0, 0] : Fin 2 → Nat) a + S50x640.size a ≤ S50x640.size a
  h_S50x640 : 0 < S50x640.numel
  shapeCasts_S50x640_S50x640 : S50x640.ShapeCasts S50x640
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1024_S1024_0 : ∀ a, (![0] : Fin 1 → Nat) a + S1024.size a ≤ S1024.size a
  h_S1024 : 0 < S1024.numel
  broadcasts_S1x640_S8x640 : S1x640.Broadcasts S8x640
  slices_S8x640_o0_0_S1x640 : S8x640.Slices ![0, 0] S1x640
  inb_S400x640_S50x640_0_0 : ∀ a, (![0, 0] : Fin 2 → Nat) a + S50x640.size a ≤ S400x640.size a
  packedbf16_S400x640_S50x640_0_0 : (Rect.unit (s := S400x640) ![0, 0] S50x640.size inb_S400x640_S50x640_0_0).PackedRows (EltTy.packing .bf16)
  slices_S8x640_o1_0_S1x640 : S8x640.Slices ![1, 0] S1x640
  inb_S400x640_S50x640_50_0 : ∀ a, (![50, 0] : Fin 2 → Nat) a + S50x640.size a ≤ S400x640.size a
  packedbf16_S400x640_S50x640_50_0 : (Rect.unit (s := S400x640) ![50, 0] S50x640.size inb_S400x640_S50x640_50_0).PackedRows (EltTy.packing .bf16)
  slices_S8x640_o2_0_S1x640 : S8x640.Slices ![2, 0] S1x640
  inb_S400x640_S50x640_100_0 : ∀ a, (![100, 0] : Fin 2 → Nat) a + S50x640.size a ≤ S400x640.size a
  packedbf16_S400x640_S50x640_100_0 : (Rect.unit (s := S400x640) ![100, 0] S50x640.size inb_S400x640_S50x640_100_0).PackedRows (EltTy.packing .bf16)
  slices_S8x640_o3_0_S1x640 : S8x640.Slices ![3, 0] S1x640
  inb_S400x640_S50x640_150_0 : ∀ a, (![150, 0] : Fin 2 → Nat) a + S50x640.size a ≤ S400x640.size a
  packedbf16_S400x640_S50x640_150_0 : (Rect.unit (s := S400x640) ![150, 0] S50x640.size inb_S400x640_S50x640_150_0).PackedRows (EltTy.packing .bf16)
  slices_S8x640_o4_0_S1x640 : S8x640.Slices ![4, 0] S1x640
  inb_S400x640_S50x640_200_0 : ∀ a, (![200, 0] : Fin 2 → Nat) a + S50x640.size a ≤ S400x640.size a
  packedbf16_S400x640_S50x640_200_0 : (Rect.unit (s := S400x640) ![200, 0] S50x640.size inb_S400x640_S50x640_200_0).PackedRows (EltTy.packing .bf16)
  slices_S8x640_o5_0_S1x640 : S8x640.Slices ![5, 0] S1x640
  inb_S400x640_S50x640_250_0 : ∀ a, (![250, 0] : Fin 2 → Nat) a + S50x640.size a ≤ S400x640.size a
  packedbf16_S400x640_S50x640_250_0 : (Rect.unit (s := S400x640) ![250, 0] S50x640.size inb_S400x640_S50x640_250_0).PackedRows (EltTy.packing .bf16)
  slices_S8x640_o6_0_S1x640 : S8x640.Slices ![6, 0] S1x640
  inb_S400x640_S50x640_300_0 : ∀ a, (![300, 0] : Fin 2 → Nat) a + S50x640.size a ≤ S400x640.size a
  packedbf16_S400x640_S50x640_300_0 : (Rect.unit (s := S400x640) ![300, 0] S50x640.size inb_S400x640_S50x640_300_0).PackedRows (EltTy.packing .bf16)
  slices_S8x640_o7_0_S1x640 : S8x640.Slices ![7, 0] S1x640
  inb_S400x640_S50x640_350_0 : ∀ a, (![350, 0] : Fin 2 → Nat) a + S50x640.size a ≤ S400x640.size a
  packedbf16_S400x640_S50x640_350_0 : (Rect.unit (s := S400x640) ![350, 0] S50x640.size inb_S400x640_S50x640_350_0).PackedRows (EltTy.packing .bf16)
  inb_S400x640_S400x640_0_0 : ∀ a, (![0, 0] : Fin 2 → Nat) a + S400x640.size a ≤ S400x640.size a
  h_S400x640 : 0 < S400x640.numel
  shapeCasts_S1024_S1x1024 : S1024.ShapeCasts S1x1024
  broadcasts_S1x1024_S400x1024 : S1x1024.Broadcasts S400x1024
  slices_S400x1024_o0_0_S50x1024 : S400x1024.Slices ![0, 0] S50x1024
  inb_S1x8x50x1024_S1x1x50x1024_0_0_0_0 : ∀ a, (![0, 0, 0, 0] : Fin 4 → Nat) a + S1x1x50x1024.size a ≤ S1x8x50x1024.size a
  h_S1x1x50x1024 : 0 < S1x1x50x1024.numel
  shapeCasts_S1x1x50x1024_S50x1024 : S1x1x50x1024.ShapeCasts S50x1024
  shapeCasts_S50x1024_S1x1x50x1024 : S50x1024.ShapeCasts S1x1x50x1024
  slices_S400x1024_o50_0_S50x1024 : S400x1024.Slices ![50, 0] S50x1024
  inb_S1x8x50x1024_S1x1x50x1024_0_1_0_0 : ∀ a, (![0, 1, 0, 0] : Fin 4 → Nat) a + S1x1x50x1024.size a ≤ S1x8x50x1024.size a
  slices_S400x1024_o100_0_S50x1024 : S400x1024.Slices ![100, 0] S50x1024
  inb_S1x8x50x1024_S1x1x50x1024_0_2_0_0 : ∀ a, (![0, 2, 0, 0] : Fin 4 → Nat) a + S1x1x50x1024.size a ≤ S1x8x50x1024.size a
  slices_S400x1024_o150_0_S50x1024 : S400x1024.Slices ![150, 0] S50x1024
  inb_S1x8x50x1024_S1x1x50x1024_0_3_0_0 : ∀ a, (![0, 3, 0, 0] : Fin 4 → Nat) a + S1x1x50x1024.size a ≤ S1x8x50x1024.size a
  slices_S400x1024_o200_0_S50x1024 : S400x1024.Slices ![200, 0] S50x1024
  inb_S1x8x50x1024_S1x1x50x1024_0_4_0_0 : ∀ a, (![0, 4, 0, 0] : Fin 4 → Nat) a + S1x1x50x1024.size a ≤ S1x8x50x1024.size a
  slices_S400x1024_o250_0_S50x1024 : S400x1024.Slices ![250, 0] S50x1024
  inb_S1x8x50x1024_S1x1x50x1024_0_5_0_0 : ∀ a, (![0, 5, 0, 0] : Fin 4 → Nat) a + S1x1x50x1024.size a ≤ S1x8x50x1024.size a
  slices_S400x1024_o300_0_S50x1024 : S400x1024.Slices ![300, 0] S50x1024
  inb_S1x8x50x1024_S1x1x50x1024_0_6_0_0 : ∀ a, (![0, 6, 0, 0] : Fin 4 → Nat) a + S1x1x50x1024.size a ≤ S1x8x50x1024.size a
  slices_S400x1024_o350_0_S50x1024 : S400x1024.Slices ![350, 0] S50x1024
  inb_S1x8x50x1024_S1x1x50x1024_0_7_0_0 : ∀ a, (![0, 7, 0, 0] : Fin 4 → Nat) a + S1x1x50x1024.size a ≤ S1x8x50x1024.size a
  dot_S50x512_S512x640_S50x640_1_0_0_1_n_n_wf : DotDims.WF S50x512 S512x640 S50x640 [1] [0] [0] [1] [] []
  dot_S8x512_S512x640_S8x640_1_0_0_1_n_n_wf : DotDims.WF S8x512 S512x640 S8x640 [1] [0] [0] [1] [] []
  dot_S400x640_S640x1024_S400x1024_1_0_0_1_n_n_wf : DotDims.WF S400x640 S640x1024 S400x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512.size a ≤ S8x200x512.size a
  hwx0_0 : ∀ i : grid0.Coords, EltTy.bits .f32 = 32 ∨ (Rect.block (s := S8x200x512) S1x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S8x200x512.size a
  hwx0_1 : ∀ i : grid0.Coords, EltTy.bits .f32 = 32 ∨ (Rect.block (s := S8x200x512) S1x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x50x512.size a ≤ S8x50x512.size a
  hwx0_2 : ∀ i : grid0.Coords, EltTy.bits .f32 = 32 ∨ (Rect.block (s := S8x50x512) S1x50x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S512x640.size a
  hwx0_3 : ∀ i : grid0.Coords, EltTy.bits .bf16 = 32 ∨ (Rect.block (s := S512x640) S512x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640.size a ≤ S640.size a
  hwx0_4 : ∀ i : grid0.Coords, EltTy.bits .f32 = 32 ∨ (Rect.block (s := S640) S640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x640.size a ≤ S512x640.size a
  hwx0_5 : ∀ i : grid0.Coords, EltTy.bits .bf16 = 32 ∨ (Rect.block (s := S512x640) S512x640.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640.size a ≤ S640.size a
  hwx0_6 : ∀ i : grid0.Coords, EltTy.bits .f32 = 32 ∨ (Rect.block (s := S640) S640.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x640.size a ≤ S512x640.size a
  hwx0_7 : ∀ i : grid0.Coords, EltTy.bits .bf16 = 32 ∨ (Rect.block (s := S512x640) S512x640.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S640.size a ≤ S640.size a
  hwx0_8 : ∀ i : grid0.Coords, EltTy.bits .f32 = 32 ∨ (Rect.block (s := S640) S640.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S640x1024.size a ≤ S640x1024.size a
  hwx0_9 : ∀ i : grid0.Coords, EltTy.bits .bf16 = 32 ∨ (Rect.block (s := S640x1024) S640x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8x50x1024.size a ≤ S8x200x50x1024.size a
  hwx0_11 : ∀ i : grid0.Coords, EltTy.bits .f32 = 32 ∨ (Rect.block (s := S8x200x50x1024) S1x8x50x1024.size (cc0_transform_11 i) (hinb0_11 i)).WholeWords (EltTy.packing .f32)

variable [Facts₀]

def dot_S50x512_S512x640_S50x640_1_0_0_1_n_n : DotDims S50x512 S512x640 S50x640 where
  lhsContracting := [1]
  rhsContracting := [0]
  lhsNonContracting := [0]
  rhsNonContracting := [1]
  lhsBatch := []
  rhsBatch := []
  wf := dot_S50x512_S512x640_S50x640_1_0_0_1_n_n_wf
def dot_S8x512_S512x640_S8x640_1_0_0_1_n_n : DotDims S8x512 S512x640 S8x640 where
  lhsContracting := [1]
  rhsContracting := [0]
  lhsNonContracting := [0]
  rhsNonContracting := [1]
  lhsBatch := []
  rhsBatch := []
  wf := dot_S8x512_S512x640_S8x640_1_0_0_1_n_n_wf
def dot_S400x640_S640x1024_S400x1024_1_0_0_1_n_n : DotDims S400x640 S640x1024 S400x1024 where
  lhsContracting := [1]
  rhsContracting := [0]
  lhsNonContracting := [0]
  rhsNonContracting := [1]
  lhsBatch := []
  rhsBatch := []
  wf := dot_S400x640_S640x1024_S400x1024_1_0_0_1_n_n_wf

abbrev win0_0 : Pipeline.Window sig grid0 :=
  Pipeline.Window.ofSpec (Memref.whole main_arg0) S1x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x50x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S640.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x640.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S640.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S640x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x8x50x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x50x512 : Shape := ⟨3, ![8, 50, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S8x200x640 : Shape := ⟨3, ![8, 200, 640]⟩
abbrev S1x1x640 : Shape := ⟨3, ![1, 1, 640]⟩
abbrev S8x50x640 : Shape := ⟨3, ![8, 50, 640]⟩
abbrev S8x200x1x640 : Shape := ⟨4, ![8, 200, 1, 640]⟩
abbrev S8x1x50x640 : Shape := ⟨4, ![8, 1, 50, 640]⟩
abbrev S8x200x50x640 : Shape := ⟨4, ![8, 200, 50, 640]⟩
abbrev S8x200x50x1024 : Shape := ⟨4, ![8, 200, 50, 1024]⟩
abbrev S1x1x1x1024 : Shape := ⟨4, ![1, 1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S8x200x512, .f32⟩
  | .hbm, ⟨3, _⟩ => ⟨S512x640, .f32⟩
  | .hbm, ⟨4, _⟩ => ⟨S640, .f32⟩
  | .hbm, ⟨5, _⟩ => ⟨S512x640, .f32⟩
  | .hbm, ⟨6, _⟩ => ⟨S640, .f32⟩
  | .hbm, ⟨7, _⟩ => ⟨S512x640, .f32⟩
  | .hbm, ⟨8, _⟩ => ⟨S640, .f32⟩
  | .hbm, ⟨9, _⟩ => ⟨S640x1024, .f32⟩
  | .hbm, ⟨10, _⟩ => ⟨S1024, .f32⟩
  | .hbm, ⟨11, _⟩ => ⟨S8x200x640, .f32⟩
  | .hbm, ⟨12, _⟩ => ⟨S1x1x640, .f32⟩
  | .hbm, ⟨13, _⟩ => ⟨S8x200x640, .f32⟩
  | .hbm, ⟨14, _⟩ => ⟨S8x200x640, .f32⟩
  | .hbm, ⟨15, _⟩ => ⟨S8x200x640, .f32⟩
  | .hbm, ⟨16, _⟩ => ⟨S8x200x640, .f32⟩
  | .hbm, ⟨17, _⟩ => ⟨S1x1x640, .f32⟩
  | .hbm, ⟨18, _⟩ => ⟨S8x200x640, .f32⟩
  | .hbm, ⟨19, _⟩ => ⟨S8x200x640, .f32⟩
  | .hbm, ⟨20, _⟩ => ⟨S8x50x640, .f32⟩
  | .hbm, ⟨21, _⟩ => ⟨S1x1x640, .f32⟩
  | .hbm, ⟨22, _⟩ => ⟨S8x50x640, .f32⟩
  | .hbm, ⟨23, _⟩ => ⟨S8x50x640, .f32⟩
  | .hbm, ⟨24, _⟩ => ⟨S8x200x1x640, .f32⟩
  | .hbm, ⟨25, _⟩ => ⟨S8x1x50x640, .f32⟩
  | .hbm, ⟨26, _⟩ => ⟨S8x200x50x640, .f32⟩
  | .hbm, ⟨27, _⟩ => ⟨S8x200x50x640, .f32⟩
  | .hbm, ⟨28, _⟩ => ⟨S8x200x50x640, .f32⟩
  | .hbm, ⟨29, _⟩ => ⟨S8x200x50x640, .f32⟩
  | .hbm, ⟨30, _⟩ => ⟨S8x200x50x1024, .f32⟩
  | .hbm, ⟨31, _⟩ => ⟨S1x1x1x1024, .f32⟩
  | .hbm, ⟨32, _⟩ => ⟨S8x200x50x1024, .f32⟩
  | .hbm, ⟨33, _⟩ => ⟨S8x200x50x1024, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S8x200x640_0_1_2 : S1x1x640.BroadcastsInDim S8x200x640 (![0, 1, 2] : Fin 3 → Fin S8x200x640.rank)
  bcast_S1x1x640_S8x50x640_0_1_2 : S1x1x640.BroadcastsInDim S8x50x640 (![0, 1, 2] : Fin 3 → Fin S8x50x640.rank)
  bcast_S8x200x640_S8x200x1x640_0_1_3 : S8x200x640.BroadcastsInDim S8x200x1x640 (![0, 1, 3] : Fin 3 → Fin S8x200x1x640.rank)
  bcast_S8x50x640_S8x1x50x640_0_2_3 : S8x50x640.BroadcastsInDim S8x1x50x640 (![0, 2, 3] : Fin 3 → Fin S8x1x50x640.rank)
  bcast_S8x200x1x640_S8x200x50x640_0_1_2_3 : S8x200x1x640.BroadcastsInDim S8x200x50x640 (![0, 1, 2, 3] : Fin 4 → Fin S8x200x50x640.rank)
  bcast_S8x1x50x640_S8x200x50x640_0_1_2_3 : S8x1x50x640.BroadcastsInDim S8x200x50x640 (![0, 1, 2, 3] : Fin 4 → Fin S8x200x50x640.rank)
  bcast_S1024_S1x1x1x1024_3 : S1024.BroadcastsInDim S1x1x1x1024 (![3] : Fin 1 → Fin S1x1x1x1024.rank)
  bcast_S1x1x1x1024_S8x200x50x1024_0_1_2_3 : S1x1x1x1024.BroadcastsInDim S8x200x50x1024 (![0, 1, 2, 3] : Fin 4 → Fin S8x200x50x1024.rank)
  dot_S8x200x512_S512x640_S8x200x640_2_0_01_1_n_n_wf : DotDims.WF S8x200x512 S512x640 S8x200x640 [2] [0] [0, 1] [1] [] []
  dot_S8x50x512_S512x640_S8x50x640_2_0_01_1_n_n_wf : DotDims.WF S8x50x512 S512x640 S8x50x640 [2] [0] [0, 1] [1] [] []
  dot_S8x200x50x640_S640x1024_S8x200x50x1024_3_0_012_1_n_n_wf : DotDims.WF S8x200x50x640 S640x1024 S8x200x50x1024 [3] [0] [0, 1, 2] [1] [] []

variable [Facts₀]

def dot_S8x200x512_S512x640_S8x200x640_2_0_01_1_n_n : DotDims S8x200x512 S512x640 S8x200x640 where
  lhsContracting := [2]
  rhsContracting := [0]
  lhsNonContracting := [0, 1]
  rhsNonContracting := [1]
  lhsBatch := []
  rhsBatch := []
  wf := dot_S8x200x512_S512x640_S8x200x640_2_0_01_1_n_n_wf
def dot_S8x50x512_S512x640_S8x50x640_2_0_01_1_n_n : DotDims S8x50x512 S512x640 S8x50x640 where
  lhsContracting := [2]
  rhsContracting := [0]
  lhsNonContracting := [0, 1]
  rhsNonContracting := [1]
  lhsBatch := []
  rhsBatch := []
  wf := dot_S8x50x512_S512x640_S8x50x640_2_0_01_1_n_n_wf
def dot_S8x200x50x640_S640x1024_S8x200x50x1024_3_0_012_1_n_n : DotDims S8x200x50x640 S640x1024 S8x200x50x1024 where
  lhsContracting := [3]
  rhsContracting := [0]
  lhsNonContracting := [0, 1, 2]
  rhsNonContracting := [1]
  lhsBatch := []
  rhsBatch := []
  wf := dot_S8x200x50x640_S640x1024_S8x200x50x1024_3_0_012_1_n_n_wf

class Facts : Prop extends Facts₀ where

variable [Facts]
-- ==== Proof.Spec.lean ====
/-
  The joint network as one function of its eleven argument arrays, over the extended reals.

  For a batch row `b`, an encoder frame `t`, a decoder step `u` and a vocabulary entry `v`:
    fused  (b, t, f) = ((Σ_e enc(b,t,e)·W_enc(e,f) + b_enc(f)) + Σ_d ot(b,t,d)·W_ot(d,f)) + b_ot(f)
    pdec   (b, u, f) = Σ_d dec(b,u,d)·W_dec(d,f) + b_dec(f)
    logits (b,t,u,v) = Σ_f tanh(fused(b,t,f) + pdec(b,u,f))·W_out(f,v) + b_out(v)
  Every sum is a finite sum of extended reals in the order of its index; nothing is re-associated, so the
  definitions are meaningful at infinite entries too.
-/
import Idealize.ShloMosaic.PureOps.Ideal
import Idealize.ShloMosaic.Lib.ValueIdx

noncomputable section

namespace Cert.Joint

open Idealize.ShloMosaic Idealize.ShloMosaic.ValueIdx
open scoped BigOperators

/-- Arrays of extended reals over literal shapes. -/
abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal
abbrev Arr4 (a b c d : Nat) := (⟨4, ![a, b, c, d]⟩ : Shape).Idx → EReal

/-- The encoder and the guide feature projected into the fusion space and summed with their biases, in the order
    the sums are taken: the encoder product, its bias, the guide product, its bias. -/
def fusedAt (enc ot : Arr3 8 200 512) (Wenc Wot : Arr2 512 640) (benc bot : Arr1 640)
    (b : Fin 8) (t : Fin 200) (f : Fin 640) : EReal :=
  (((∑ e : Fin 512, enc (ix3 b t e) * Wenc (ix2 e f)) + benc (ix1 f))
    + ∑ d : Fin 512, ot (ix3 b t d) * Wot (ix2 d f)) + bot (ix1 f)

/-- The decoder state projected into the fusion space, with its bias. -/
def pdecAt (dec : Arr3 8 50 512) (Wdec : Arr2 512 640) (bdec : Arr1 640)
    (b : Fin 8) (u : Fin 50) (f : Fin 640) : EReal :=
  (∑ d : Fin 512, dec (ix3 b u d) * Wdec (ix2 d f)) + bdec (ix1 f)

/-- One logit: the hyperbolic tangent of the broadcast sum, projected onto vocabulary entry `v`, plus its bias. -/
def logitAt (enc : Arr3 8 200 512) (dec : Arr3 8 50 512) (ot : Arr3 8 200 512) (Wenc : Arr2 512 640) (benc : Arr1 640)
    (Wot : Arr2 512 640) (bot : Arr1 640) (Wdec : Arr2 512 640) (bdec : Arr1 640) (Wout : Arr2 640 1024) (bout : Arr1 1024)
    (b : Fin 8) (t : Fin 200) (u : Fin 50) (v : Fin 1024) : EReal :=
  (∑ f : Fin 640, Ideal.tanh (fusedAt enc ot Wenc Wot benc bot b t f + pdecAt dec Wdec bdec b u f) * Wout (ix2 f v))
    + bout (ix1 v)

/-- The whole result array: entry `(b, t, u, v)` is `logitAt … b t u v`. -/
def logits (enc : Arr3 8 200 512) (dec : Arr3 8 50 512) (ot : Arr3 8 200 512) (Wenc : Arr2 512 640) (benc : Arr1 640)
    (Wot : Arr2 512 640) (bot : Arr1 640) (Wdec : Arr2 512 640) (bdec : Arr1 640) (Wout : Arr2 640 1024) (bout : Arr1 1024) :
    Arr4 8 200 50 1024 :=
  fun j => logitAt enc dec ot Wenc benc Wot bot Wdec bdec Wout bout (j 0) (j 1) (j 2) (j 3)

theorem logits_ix4 (enc : Arr3 8 200 512) (dec : Arr3 8 50 512) (ot : Arr3 8 200 512) (Wenc : Arr2 512 640) (benc : Arr1 640)
    (Wot : Arr2 512 640) (bot : Arr1 640) (Wdec : Arr2 512 640) (bdec : Arr1 640) (Wout : Arr2 640 1024) (bout : Arr1 1024)
    (b : Fin 8) (t : Fin 200) (u : Fin 50) (v : Fin 1024) :
    logits enc dec ot Wenc benc Wot bot Wdec bdec Wout bout (ix4 b t u v)
      = logitAt enc dec ot Wenc benc Wot bot Wdec bdec Wout bout b t u v := rfl

end Cert.Joint

end
-- ==== Proof.RefValue.lean ====
/-
  The reference program computes the joint network.

  Read one operation at a time, the reference forms the encoder projection plus its bias plus the guide projection plus
  its bias (an array over batch row, frame and fusion feature) and the decoder projection plus its bias (over batch row,
  decoder step and fusion feature); it lays both out over (row, frame, step, feature) by repeating each along the axis it
  lacks, adds them, takes the hyperbolic tangent, contracts the feature axis against the output weights and adds the
  output bias. A layout step reads its operand at the index obtained by dropping a coordinate or setting it to zero, and a
  contraction reads its operands at the index with the contracted coordinate put in. At explicit coordinates all these
  indices are the coordinate tuples the specification is written with; once that is checked, each stage is the
  specification's term of the same name, the sums being taken in the same order and nothing re-associated.
-/
import proofs.«142737_j32908039422062_1_alg».proof.Proof.Gen.ReferenceIdeal.Read
import proofs.«142737_j32908039422062_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The index maps at explicit coordinates -/

/-- Encoder projection, left operand: entry (b, t, f) reads the encoder at (b, t, k). -/
theorem lidx_enc (b : Fin 8) (t : Fin 200) (f : Fin 640) (k : Fin 512) :
    lidx_main_v0 (ix3 b t f) k = ix3 b t k :=
  funext fun a => match a with | ⟨0, _⟩ => rfl | ⟨1, _⟩ => rfl | ⟨2, _⟩ => rfl

/-- Encoder projection, right operand: entry (b, t, f) reads the weights at (k, f). -/
theorem ridx_enc (b : Fin 8) (t : Fin 200) (f : Fin 640) (k : Fin 512) :
    ridx_main_v0 (ix3 b t f) k = ix2 k f :=
  funext fun a => match a with | ⟨0, _⟩ => rfl | ⟨1, _⟩ => rfl

/-- Guide projection, left operand. -/
theorem lidx_ot (b : Fin 8) (t : Fin 200) (f : Fin 640) (k : Fin 512) :
    lidx_main_v4 (ix3 b t f) k = ix3 b t k :=
  funext fun a => match a with | ⟨0, _⟩ => rfl | ⟨1, _⟩ => rfl | ⟨2, _⟩ => rfl

/-- Guide projection, right operand. -/
theorem ridx_ot (b : Fin 8) (t : Fin 200) (f : Fin 640) (k : Fin 512) :
    ridx_main_v4 (ix3 b t f) k = ix2 k f :=
  funext fun a => match a with | ⟨0, _⟩ => rfl | ⟨1, _⟩ => rfl

/-- Decoder projection, left operand: entry (b, u, f) reads the decoder state at (b, u, k). -/
theorem lidx_dec (b : Fin 8) (u : Fin 50) (f : Fin 640) (k : Fin 512) :
    lidx_main_v9 (ix3 b u f) k = ix3 b u k :=
  funext fun a => match a with | ⟨0, _⟩ => rfl | ⟨1, _⟩ => rfl | ⟨2, _⟩ => rfl

/-- Decoder projection, right operand. -/
theorem ridx_dec (b : Fin 8) (u : Fin 50) (f : Fin 640) (k : Fin 512) :
    ridx_main_v9 (ix3 b u f) k = ix2 k f :=
  funext fun a => match a with | ⟨0, _⟩ => rfl | ⟨1, _⟩ => rfl

/-- Output projection, left operand: entry (b, t, u, v) reads the activations at (b, t, u, k). -/
theorem lidx_out (b : Fin 8) (t : Fin 200) (u : Fin 50) (v : Fin 1024) (k : Fin 640) :
    lidx_main_v19 (ix4 b t u v) k = ix4 b t u k :=
  funext fun a => match a with | ⟨0, _⟩ => rfl | ⟨1, _⟩ => rfl | ⟨2, _⟩ => rfl | ⟨3, _⟩ => rfl

/-- Output projection, right operand: entry (b, t, u, v) reads the output weights at (k, v). -/
theorem ridx_out (b : Fin 8) (t : Fin 200) (u : Fin 50) (v : Fin 1024) (k : Fin 640) :
    ridx_main_v19 (ix4 b t u v) k = ix2 k v :=
  funext fun a => match a with | ⟨0, _⟩ => rfl | ⟨1, _⟩ => rfl

/-- The encoder bias repeated over rows and frames is read at the feature alone. -/
theorem idx_benc (b : Fin 8) (t : Fin 200) (f : Fin 640) :
    idx_main_v1 (idx_main_v2 (ix3 b t f)) = ix1 f :=
  funext fun a => match a with | ⟨0, _⟩ => rfl

/-- The guide bias repeated over rows and frames is read at the feature alone. -/
theorem idx_bot (b : Fin 8) (t : Fin 200) (f : Fin 640) :
    idx_main_v6 (idx_main_v7 (ix3 b t f)) = ix1 f :=
  funext fun a => match a with | ⟨0, _⟩ => rfl

/-- The decoder bias repeated over rows and steps is read at the feature alone. -/
theorem idx_bdec (b : Fin 8) (u : Fin 50) (f : Fin 640) :
    idx_main_v10 (idx_main_v11 (ix3 b u f)) = ix1 f :=
  funext fun a => match a with | ⟨0, _⟩ => rfl

/-- The fused features repeated along the decoder steps: entry (b, t, u, f) reads (b, t, f). -/
theorem idx_fused (b : Fin 8) (t : Fin 200) (u : Fin 50) (f : Fin 640) :
    idx_main_v13 (idx_main_v15 (ix4 b t u f)) = ix3 b t f :=
  funext fun a => match a with | ⟨0, _⟩ => rfl | ⟨1, _⟩ => rfl | ⟨2, _⟩ => rfl

/-- The decoder features repeated along the frames: entry (b, t, u, f) reads (b, u, f). -/
theorem idx_pdec (b : Fin 8) (t : Fin 200) (u : Fin 50) (f : Fin 640) :
    idx_main_v14 (idx_main_v16 (ix4 b t u f)) = ix3 b u f :=
  funext fun a => match a with | ⟨0, _⟩ => rfl | ⟨1, _⟩ => rfl | ⟨2, _⟩ => rfl

/-- The output bias repeated over rows, frames and steps is read at the vocabulary entry alone. -/
theorem idx_bout (b : Fin 8) (t : Fin 200) (u : Fin 50) (v : Fin 1024) :
    idx_main_v20 (idx_main_v21 (ix4 b t u v)) = ix1 v :=
  funext fun a => match a with | ⟨0, _⟩ => rfl

/-! ## The three projections and their biases at explicit coordinates -/

/-- The encoder projection at (b, t, f) is the sum over the encoder features. -/
theorem encProj_at (x0 : (⟨S8x200x512, .f32⟩ : BufTy).Contents (Elt Ideal)) (x3 : (⟨S512x640, .f32⟩ : BufTy).Contents (Elt Ideal))
    (b : Fin 8) (t : Fin 200) (f : Fin 640) :
    val_main_v0 (F := Ideal) x0 x3 (ix3 b t f) = ∑ e : Fin 512, x0 (ix3 b t e) * x3 (ix2 e f) := by
  rw [val_main_v0_apply]
  refine Finset.sum_congr rfl fun k _ => ?_
  rw [lidx_enc, ridx_enc]

/-- The guide projection at (b, t, f) is the sum over the guide features. -/
theorem otProj_at (x2 : (⟨S8x200x512, .f32⟩ : BufTy).Contents (Elt Ideal)) (x5 : (⟨S512x640, .f32⟩ : BufTy).Contents (Elt Ideal))
    (b : Fin 8) (t : Fin 200) (f : Fin 640) :
    val_main_v4 (F := Ideal) x2 x5 (ix3 b t f) = ∑ d : Fin 512, x2 (ix3 b t d) * x5 (ix2 d f) := by
  rw [val_main_v4_apply]
  refine Finset.sum_congr rfl fun k _ => ?_
  rw [lidx_ot, ridx_ot]

/-- The decoder projection at (b, u, f) is the sum over the decoder features. -/
theorem decProj_at (x1 : (⟨S8x50x512, .f32⟩ : BufTy).Contents (Elt Ideal)) (x7 : (⟨S512x640, .f32⟩ : BufTy).Contents (Elt Ideal))
    (b : Fin 8) (u : Fin 50) (f : Fin 640) :
    val_main_v9 (F := Ideal) x1 x7 (ix3 b u f) = ∑ d : Fin 512, x1 (ix3 b u d) * x7 (ix2 d f) := by
  rw [val_main_v9_apply]
  refine Finset.sum_congr rfl fun k _ => ?_
  rw [lidx_dec, ridx_dec]

/-- The encoder bias laid out over (b, t, f) is its entry f. -/
theorem encBias_at (x4 : (⟨S640, .f32⟩ : BufTy).Contents (Elt Ideal)) (b : Fin 8) (t : Fin 200) (f : Fin 640) :
    val_main_v2 (F := Ideal) x4 (ix3 b t f) = x4 (ix1 f) := by
  rw [val_main_v2_apply, val_main_v1_apply, idx_benc]

/-- The guide bias laid out over (b, t, f) is its entry f. -/
theorem otBias_at (x6 : (⟨S640, .f32⟩ : BufTy).Contents (Elt Ideal)) (b : Fin 8) (t : Fin 200) (f : Fin 640) :
    val_main_v7 (F := Ideal) x6 (ix3 b t f) = x6 (ix1 f) := by
  rw [val_main_v7_apply, val_main_v6_apply, idx_bot]

/-- The decoder bias laid out over (b, u, f) is its entry f. -/
theorem decBias_at (x8 : (⟨S640, .f32⟩ : BufTy).Contents (Elt Ideal)) (b : Fin 8) (u : Fin 50) (f : Fin 640) :
    val_main_v11 (F := Ideal) x8 (ix3 b u f) = x8 (ix1 f) := by
  rw [val_main_v11_apply, val_main_v10_apply, idx_bdec]

/-- The output bias laid out over (b, t, u, v) is its entry v. -/
theorem outBias_at (x10 : (⟨S1024, .f32⟩ : BufTy).Contents (Elt Ideal)) (b : Fin 8) (t : Fin 200) (u : Fin 50) (v : Fin 1024) :
    val_main_v21 (F := Ideal) x10 (ix4 b t u v) = x10 (ix1 v) := by
  rw [val_main_v21_apply, val_main_v20_apply, idx_bout]

/-! ## The fused and the decoder features -/

/-- The reference's fused features are the specification's: encoder product, its bias, guide product, its bias, added
    in that order. -/
theorem fused_ref (x0 x2 : (⟨S8x200x512, .f32⟩ : BufTy).Contents (Elt Ideal)) (x3 : (⟨S512x640, .f32⟩ : BufTy).Contents (Elt Ideal)) (x4 : (⟨S640, .f32⟩ : BufTy).Contents (Elt Ideal))
    (x5 : (⟨S512x640, .f32⟩ : BufTy).Contents (Elt Ideal)) (x6 : (⟨S640, .f32⟩ : BufTy).Contents (Elt Ideal)) (b : Fin 8) (t : Fin 200) (f : Fin 640) :
    val_main_v8 (F := Ideal) x0 x2 x3 x4 x5 x6 (ix3 b t f) = Cert.Joint.fusedAt x0 x2 x3 x5 x4 x6 b t f := by
  rw [val_main_v8_apply, val_main_v5_apply, val_main_v3_apply, encProj_at, encBias_at, otProj_at, otBias_at]
  rfl

/-- The reference's decoder features are the specification's: decoder product plus its bias. -/
theorem pdec_ref (x1 : (⟨S8x50x512, .f32⟩ : BufTy).Contents (Elt Ideal)) (x7 : (⟨S512x640, .f32⟩ : BufTy).Contents (Elt Ideal)) (x8 : (⟨S640, .f32⟩ : BufTy).Contents (Elt Ideal))
    (b : Fin 8) (u : Fin 50) (f : Fin 640) :
    val_main_v12 (F := Ideal) x1 x7 x8 (ix3 b u f) = Cert.Joint.pdecAt x1 x7 x8 b u f := by
  rw [val_main_v12_apply, decProj_at, decBias_at]
  rfl

/-! ## The activations -/

/-- The fused features laid out over (b, t, u, f) do not depend on the decoder step. -/
theorem fusedWide_at (x0 x2 : (⟨S8x200x512, .f32⟩ : BufTy).Contents (Elt Ideal)) (x3 : (⟨S512x640, .f32⟩ : BufTy).Contents (Elt Ideal)) (x4 : (⟨S640, .f32⟩ : BufTy).Contents (Elt Ideal))
    (x5 : (⟨S512x640, .f32⟩ : BufTy).Contents (Elt Ideal)) (x6 : (⟨S640, .f32⟩ : BufTy).Contents (Elt Ideal)) (b : Fin 8) (t : Fin 200) (u : Fin 50) (f : Fin 640) :
    val_main_v15 (F := Ideal) x0 x2 x3 x4 x5 x6 (ix4 b t u f) = Cert.Joint.fusedAt x0 x2 x3 x5 x4 x6 b t f := by
  rw [val_main_v15_apply, val_main_v13_apply, idx_fused, fused_ref]

/-- The decoder features laid out over (b, t, u, f) do not depend on the frame. -/
theorem pdecWide_at (x1 : (⟨S8x50x512, .f32⟩ : BufTy).Contents (Elt Ideal)) (x7 : (⟨S512x640, .f32⟩ : BufTy).Contents (Elt Ideal)) (x8 : (⟨S640, .f32⟩ : BufTy).Contents (Elt Ideal))
    (b : Fin 8) (t : Fin 200) (u : Fin 50) (f : Fin 640) :
    val_main_v16 (F := Ideal) x1 x7 x8 (ix4 b t u f) = Cert.Joint.pdecAt x1 x7 x8 b u f := by
  rw [val_main_v16_apply, val_main_v14_apply, idx_pdec, pdec_ref]

/-- The activation at (b, t, u, f) is the hyperbolic tangent of the sum of the two features. -/
theorem act_at (x0 : (⟨S8x200x512, .f32⟩ : BufTy).Contents (Elt Ideal)) (x1 : (⟨S8x50x512, .f32⟩ : BufTy).Contents (Elt Ideal)) (x2 : (⟨S8x200x512, .f32⟩ : BufTy).Contents (Elt Ideal))
    (x3 : (⟨S512x640, .f32⟩ : BufTy).Contents (Elt Ideal)) (x4 : (⟨S640, .f32⟩ : BufTy).Contents (Elt Ideal)) (x5 : (⟨S512x640, .f32⟩ : BufTy).Contents (Elt Ideal)) (x6 : (⟨S640, .f32⟩ : BufTy).Contents (Elt Ideal))
    (x7 : (⟨S512x640, .f32⟩ : BufTy).Contents (Elt Ideal)) (x8 : (⟨S640, .f32⟩ : BufTy).Contents (Elt Ideal)) (b : Fin 8) (t : Fin 200) (u : Fin 50) (f : Fin 640) :
    val_main_v18 (F := Ideal) x0 x1 x2 x3 x4 x5 x6 x7 x8 (ix4 b t u f)
      = Ideal.tanh (Cert.Joint.fusedAt x0 x2 x3 x5 x4 x6 b t f + Cert.Joint.pdecAt x1 x7 x8 b u f) := by
  rw [val_main_v18_apply, val_main_v17_apply, fusedWide_at, pdecWide_at]
  rfl

/-! ## The logits -/

/-- One logit of the reference is the specification's. -/
theorem logit_ref (x0 : (⟨S8x200x512, .f32⟩ : BufTy).Contents (Elt Ideal)) (x1 : (⟨S8x50x512, .f32⟩ : BufTy).Contents (Elt Ideal)) (x2 : (⟨S8x200x512, .f32⟩ : BufTy).Contents (Elt Ideal))
    (x3 : (⟨S512x640, .f32⟩ : BufTy).Contents (Elt Ideal)) (x4 : (⟨S640, .f32⟩ : BufTy).Contents (Elt Ideal)) (x5 : (⟨S512x640, .f32⟩ : BufTy).Contents (Elt Ideal)) (x6 : (⟨S640, .f32⟩ : BufTy).Contents (Elt Ideal))
    (x7 : (⟨S512x640, .f32⟩ : BufTy).Contents (Elt Ideal)) (x8 : (⟨S640, .f32⟩ : BufTy).Contents (Elt Ideal)) (x9 : (⟨S640x1024, .f32⟩ : BufTy).Contents (Elt Ideal)) (x10 : (⟨S1024, .f32⟩ : BufTy).Contents (Elt Ideal))
    (b : Fin 8) (t : Fin 200) (u : Fin 50) (v : Fin 1024) :
    val_main_v22 (F := Ideal) x0 x1 x2 x3 x4 x5 x6 x7 x8 x9 x10 (ix4 b t u v)
      = Cert.Joint.logitAt x0 x1 x2 x3 x4 x5 x6 x7 x8 x9 x10 b t u v := by
  rw [val_main_v22_apply, val_main_v19_apply, outBias_at]
  have hsum : (∑ k : Fin 640, val_main_v18 (F := Ideal) x0 x1 x2 x3 x4 x5 x6 x7 x8 (lidx_main_v19 (ix4 b t u v) k)
        * x9 (ridx_main_v19 (ix4 b t u v) k))
      = ∑ f : Fin 640, Ideal.tanh (Cert.Joint.fusedAt x0 x2 x3 x5 x4 x6 b t f + Cert.Joint.pdecAt x1 x7 x8 b u f)
          * x9 (ix2 f v) := by
    refine Finset.sum_congr rfl fun k _ => ?_
    rw [lidx_out, ridx_out, act_at]
  rw [hsum]
  rfl

/-- The reference's result is the joint network's logits, entry by entry. -/
theorem ref_eq (x0 : FVec Ideal S8x200x512 .f32) (x1 : FVec Ideal S8x50x512 .f32) (x2 : FVec Ideal S8x200x512 .f32)
    (x3 : FVec Ideal S512x640 .f32) (x4 : FVec Ideal S640 .f32) (x5 : FVec Ideal S512x640 .f32) (x6 : FVec Ideal S640 .f32)
    (x7 : FVec Ideal S512x640 .f32) (x8 : FVec Ideal S640 .f32) (x9 : FVec Ideal S640x1024 .f32) (x10 : FVec Ideal S1024 .f32) :
    val_main_v22 (F := Ideal) x0 x1 x2 x3 x4 x5 x6 x7 x8 x9 x10 = Cert.Joint.logits x0 x1 x2 x3 x4 x5 x6 x7 x8 x9 x10 := by
  funext i
  obtain ⟨b, t, u, v, rfl⟩ : ∃ (b : Fin 8) (t : Fin 200) (u : Fin 50) (v : Fin 1024), i = ix4 b t u v :=
    ⟨i 0, i 1, i 2, i 3, eq_ix4 i⟩
  rw [Cert.Joint.logits_ix4]
  exact logit_ref x0 x1 x2 x3 x4 x5 x6 x7 x8 x9 x10 b t u v

end Cert.ReferenceIdeal.RefValue

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.PayValue.lean ====
/-
  The kernel body's stored values, read at an index over the extended reals.

  Each value the body stores is a pure function of the blocks it loaded. Read at an index:
  * the decoder projection block at `(u, f)` is `Σ_d dec(0,u,d)·W(d,f) + b(f)`;
  * the fused block at `(r, f)` is `((Σ_e enc(0,r,e)·W_enc(e,f) + b_enc(f)) + Σ_d ot(0,r,d)·W_ot(d,f)) + b_ot(f)`;
  * the eight slabs of joint activations: slab `k` at `(u, f)` is `tanh(fused(k,f) + pdec(u,f))`;
  * the vocabulary product at `(r, v)` is `Σ_f joint(r,f)·W_out(f,v) + b_out(v)`;
  * the eight stored output slabs: slab `k` at `(0,0,u,v)` is the product's row `50·k + u`.
  A change of float format is the identity on extended reals, and a matrix product into a zero accumulator is
  the plain sum of products.
-/
import proofs.«142737_j32908039422062_1_alg».proof.Proof.Gen.KernelIdeal.Skeleton
import proofs.«142737_j32908039422062_1_alg».proof.Proof.LibDotFormats
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-- Row `50·k + u` of the 400 joint rows: slab `k`, decoder step `u`. -/
abbrev row (k : Fin 8) (u : Fin 50) : Fin 400 := ⟨50 * k.val + u.val, by have := k.isLt; have := u.isLt; omega⟩

/-- The fused block of one grid point, from the encoder block, the guide block, the two weight matrices and
    the two biases. -/
def fusedBlk (x0 x1 : Vec Ideal S1x8x512 .f32) (x3 x5 : Vec Ideal S512x640 .bf16) (x4 x6 : Vec Ideal S640 .f32)
    (r : Fin 8) (f : Fin 640) : EReal :=
  (((∑ e : Fin 512, x0 (ix3 0 r e) * x3 (ix2 e f)) + x4 (ix1 f)) + ∑ d : Fin 512, x1 (ix3 0 r d) * x5 (ix2 d f)) + x6 (ix1 f)

/-- The decoder projection of one batch row, from the decoder block, the weight matrix and the bias. -/
def pdBlk (x2 : Vec Ideal S1x50x512 .f32) (x7 : Vec Ideal S512x640 .bf16) (x8 : Vec Ideal S640 .f32)
    (u : Fin 50) (f : Fin 640) : EReal :=
  (∑ d : Fin 512, x2 (ix3 0 u d) * x7 (ix2 d f)) + x8 (ix1 f)

/-! ### Operations read at an index, over variables of the literal vector types -/

/-- A [1, a, 512] block cast to [a, 512] and narrowed, against a [512, 640] matrix, into the zero accumulator:
    the plain sum of products. -/
private theorem mm512 {a : Nat} (d : DotDims ⟨2, ![a, 512]⟩ S512x640 ⟨2, ![a, 640]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨3, ![1, a, 512]⟩ .f32) (w : FVec Ideal S512x640 .bf16)
    (hc : (⟨3, ![1, a, 512]⟩ : Shape).ShapeCasts ⟨2, ![a, 512]⟩) (ht : FTy.bits .bf16 < FTy.bits .f32)
    (hw : S512x640.ShapeCasts S512x640) (r : Fin a) (f : Fin 640) :
    matmul d none (truncf .bf16 (shapeCast ⟨2, ![a, 512]⟩ x hc) ht) (shapeCast S512x640 w hw)
        (constant (F := Ideal) ⟨2, ![a, 640]⟩ .f32 0x00000000#32) (ix2 r f)
      = ∑ e : Fin 512, x (ix3 0 r e) * w (ix2 e f) := by
  refine (Cert.LibDotFormats.matmul_cols_zero_apply (φ₁ := .bf16) (φ₂ := .bf16) d hlc hrc hln hrn hlb hrb none _ _ r f).trans ?_
  refine Finset.sum_congr rfl fun e _ => ?_
  refine congrArg₂ (· * ·) ?_ ?_
  · exact shapeCast_1ab_ab_apply x hc r e
  · exact congrFun (shapeCast_self w hw) (ix2 e f)

/-- A bias vector cast to one row and broadcast over a rows reads its entry of the column. -/
private theorem bias_apply {a n : Nat} (b : FVec Ideal ⟨1, ![n]⟩ .f32) (hc : (⟨1, ![n]⟩ : Shape).ShapeCasts ⟨2, ![1, n]⟩)
    (hb : (⟨2, ![1, n]⟩ : Shape).Broadcasts ⟨2, ![a, n]⟩) (r : Fin a) (f : Fin n) :
    broadcastTo ⟨2, ![a, n]⟩ (shapeCast ⟨2, ![1, n]⟩ b hc) hb (ix2 r f) = b (ix1 f) :=
  (broadcastTo_1b_ab_apply _ hb r f).trans (shapeCast_a_1a_apply b hc 0 f)

/-- Row k of the fused block broadcast over the decoder steps, added to the decoder projection, through the
    hyperbolic tangent and narrowed. -/
private theorem slab_apply (o : Nat) (k : Fin 8) (hk : k.val = o) (v26 : FVec Ideal S8x640 .f32) (v27 : FVec Ideal S50x640 .f32)
    (hs : S8x640.Slices ![o, 0] S1x640) (hb : S1x640.Broadcasts S50x640) (ht : FTy.bits .bf16 < FTy.bits .f32)
    (u : Fin 50) (f : Fin 640) :
    truncf .bf16 (tanh (addf (broadcastTo S50x640 (extractStridedSlice S1x640 ![o, 0] v26 hs) hb) v27)) ht (ix2 u f)
      = Ideal.tanh (v26 (ix2 k f) + v27 (ix2 u f)) := by
  show Ideal.tanh (broadcastTo S50x640 (extractStridedSlice S1x640 ![o, 0] v26 hs) hb (ix2 u f) + v27 (ix2 u f)) = _
  refine congrArg (fun z => Ideal.tanh (z + v27 (ix2 u f))) ?_
  refine (broadcastTo_1b_ab_apply _ hb u f).trans ?_
  exact slice2_axis0_apply o v26 hs 0 f k (hk.trans (Nat.add_zero o).symm)

/-- Fifty rows of the 400 from row o = 50·k, cast to [1, 1, 50, 1024]: at (0, 0, u, v) it is row 50·k + u. -/
private theorem outSlab_apply (o : Nat) (k : Fin 8) (hk : 50 * k.val = o) (v96 : FVec Ideal S400x1024 .f32)
    (hs : S400x1024.Slices ![o, 0] S50x1024) (hc : S50x1024.ShapeCasts S1x1x50x1024) (u : Fin 50) (v : Fin 1024) :
    shapeCast S1x1x50x1024 (extractStridedSlice S50x1024 ![o, 0] v96 hs) hc (ix4 0 0 u v) = v96 (ix2 (row k u) v) := by
  refine (shapeCast_apply _ hc (ix4 0 0 u v) (ix2 u v) ?_).trans ?_
  · rw [Shape.rowMajor_val_two, Shape.rowMajor_val_four]
    show u.val * 1024 + v.val = ((0 * 1 + 0) * 50 + u.val) * 1024 + v.val
    omega
  · exact slice2_axis0_apply o v96 hs u v (row k u) (by show 50 * k.val + u.val = o + u.val; omega)

theorem pay6_apply (x2 : Vec Ideal S1x50x512 .f32) (x7 : Vec Ideal S512x640 .bf16) (x8 : Vec Ideal S640 .f32)
    (u : Fin 50) (f : Fin 640) :
    k0_pay6 (F := Ideal) x2 x7 x8 (ix2 u f) = pdBlk x2 x7 x8 u f := by
  unfold k0_pay6 pdBlk
  refine (congrFun (shapeCast_self _ _) (ix2 u f)).trans ?_
  refine (addf_apply _ _ _).trans ?_
  refine congrArg₂ (· + ·) ?_ ?_
  · exact mm512 dot_S50x512_S512x640_S50x640_1_0_0_1_n_n rfl rfl rfl rfl rfl rfl x2 x7 _ _ _ u f
  · exact bias_apply x8 _ _ u f

theorem pay8_apply (x0 x1 : Vec Ideal S1x8x512 .f32) (x3 x5 : Vec Ideal S512x640 .bf16) (x4 x6 : Vec Ideal S640 .f32)
    (r : Fin 8) (f : Fin 640) :
    k0_pay8 (F := Ideal) x0 x1 x3 x5 x4 x6 (ix2 r f) = fusedBlk x0 x1 x3 x5 x4 x6 r f := by
  unfold k0_pay8 fusedBlk
  refine (addf_apply _ _ _).trans ?_
  refine congrArg₂ (· + ·) ?_ (bias_apply x6 _ _ r f)
  refine (addf_apply _ _ _).trans ?_
  refine congrArg₂ (· + ·) ?_ (mm512 dot_S8x512_S512x640_S8x640_1_0_0_1_n_n rfl rfl rfl rfl rfl rfl x1 x5 _ _ _ r f)
  refine (addf_apply _ _ _).trans ?_
  exact congrArg₂ (· + ·) (mm512 dot_S8x512_S512x640_S8x640_1_0_0_1_n_n rfl rfl rfl rfl rfl rfl x0 x3 _ _ _ r f)
    (bias_apply x4 _ _ r f)

theorem pay7_eq (x9 : Vec Ideal S640x1024 .bf16) : k0_pay7 (F := Ideal) x9 = x9 := by
  unfold k0_pay7
  exact shapeCast_self x9 _

/-! ### The eight slabs of joint activations -/

theorem jp0 (x0 x1 : Vec Ideal S1x8x512 .f32) (x3 x5 : Vec Ideal S512x640 .bf16) (x4 x6 : Vec Ideal S640 .f32)
    (v27 : Vec Ideal S50x640 .f32) (u : Fin 50) (f : Fin 640) :
    k0_pay10 (F := Ideal) (k0_pay9 x0 x1 x3 x5 x4 x6 v27) (ix2 u f)
      = Ideal.tanh (k0_pay8 (F := Ideal) x0 x1 x3 x5 x4 x6 (ix2 0 f) + v27 (ix2 u f)) := by
  unfold k0_pay10 k0_pay9
  refine (congrFun (shapeCast_self _ _) (ix2 u f)).trans ?_
  exact slab_apply 0 0 rfl (k0_pay8 x0 x1 x3 x5 x4 x6) v27 _ _ _ u f

theorem jp1 (v26 : FVec Ideal S8x640 .f32) (v27 : Vec Ideal S50x640 .f32) (u : Fin 50) (f : Fin 640) :
    k0_pay11 (F := Ideal) v26 v27 (ix2 u f) = Ideal.tanh (v26 (ix2 1 f) + v27 (ix2 u f)) := by
  unfold k0_pay11
  refine (congrFun (shapeCast_self _ _) (ix2 u f)).trans ?_
  exact slab_apply 1 1 rfl v26 v27 _ _ _ u f

theorem jp2 (v26 : FVec Ideal S8x640 .f32) (v27 : Vec Ideal S50x640 .f32) (u : Fin 50) (f : Fin 640) :
    k0_pay12 (F := Ideal) v26 v27 (ix2 u f) = Ideal.tanh (v26 (ix2 2 f) + v27 (ix2 u f)) := by
  unfold k0_pay12
  refine (congrFun (shapeCast_self _ _) (ix2 u f)).trans ?_
  exact slab_apply 2 2 rfl v26 v27 _ _ _ u f

theorem jp3 (v26 : FVec Ideal S8x640 .f32) (v27 : Vec Ideal S50x640 .f32) (u : Fin 50) (f : Fin 640) :
    k0_pay13 (F := Ideal) v26 v27 (ix2 u f) = Ideal.tanh (v26 (ix2 3 f) + v27 (ix2 u f)) := by
  unfold k0_pay13
  refine (congrFun (shapeCast_self _ _) (ix2 u f)).trans ?_
  exact slab_apply 3 3 rfl v26 v27 _ _ _ u f

theorem jp4 (v26 : FVec Ideal S8x640 .f32) (v27 : Vec Ideal S50x640 .f32) (u : Fin 50) (f : Fin 640) :
    k0_pay14 (F := Ideal) v26 v27 (ix2 u f) = Ideal.tanh (v26 (ix2 4 f) + v27 (ix2 u f)) := by
  unfold k0_pay14
  refine (congrFun (shapeCast_self _ _) (ix2 u f)).trans ?_
  exact slab_apply 4 4 rfl v26 v27 _ _ _ u f

theorem jp5 (v26 : FVec Ideal S8x640 .f32) (v27 : Vec Ideal S50x640 .f32) (u : Fin 50) (f : Fin 640) :
    k0_pay15 (F := Ideal) v26 v27 (ix2 u f) = Ideal.tanh (v26 (ix2 5 f) + v27 (ix2 u f)) := by
  unfold k0_pay15
  refine (congrFun (shapeCast_self _ _) (ix2 u f)).trans ?_
  exact slab_apply 5 5 rfl v26 v27 _ _ _ u f

theorem jp6 (v26 : FVec Ideal S8x640 .f32) (v27 : Vec Ideal S50x640 .f32) (u : Fin 50) (f : Fin 640) :
    k0_pay17 (F := Ideal) v27 (k0_pay16 v26) (ix2 u f) = Ideal.tanh (v26 (ix2 6 f) + v27 (ix2 u f)) := by
  unfold k0_pay17 k0_pay16
  refine (congrFun (shapeCast_self _ _) (ix2 u f)).trans ?_
  exact slab_apply 6 6 rfl v26 v27 _ _ _ u f

theorem jp7 (v26 : FVec Ideal S8x640 .f32) (v27 : Vec Ideal S50x640 .f32) (u : Fin 50) (f : Fin 640) :
    k0_pay18 (F := Ideal) v26 v27 (ix2 u f) = Ideal.tanh (v26 (ix2 7 f) + v27 (ix2 u f)) := by
  unfold k0_pay18
  refine (congrFun (shapeCast_self _ _) (ix2 u f)).trans ?_
  exact slab_apply 7 7 rfl v26 v27 _ _ _ u f

/-! ### The vocabulary product and the eight stored output slabs -/

theorem pay19_apply (v16 : FVec Ideal S640x1024 .bf16) (v17 : Vec Ideal S1024 .f32) (v92 : Vec Ideal S400x640 .bf16)
    (r : Fin 400) (v : Fin 1024) :
    k0_pay19 (F := Ideal) v16 v17 v92 (ix2 r v) = (∑ f : Fin 640, v92 (ix2 r f) * v16 (ix2 f v)) + v17 (ix1 v) := by
  unfold k0_pay19
  refine (addf_apply _ _ _).trans ?_
  refine congrArg₂ (· + ·) ?_ (bias_apply v17 _ _ r v)
  exact Cert.LibDotFormats.matmul_cols_zero_apply (φ₁ := .bf16) (φ₂ := .bf16)
    dot_S400x640_S640x1024_S400x1024_1_0_0_1_n_n rfl rfl rfl rfl rfl rfl none v92 v16 r v

theorem op0 (v16 : FVec Ideal S640x1024 .bf16) (v17 : Vec Ideal S1024 .f32) (v92 : Vec Ideal S400x640 .bf16)
    (u : Fin 50) (v : Fin 1024) :
    k0_pay20 (F := Ideal) v16 v17 v92 (ix4 0 0 u v) = k0_pay19 (F := Ideal) v16 v17 v92 (ix2 (row 0 u) v) := by
  unfold k0_pay20
  exact outSlab_apply 0 0 rfl (k0_pay19 v16 v17 v92) _ _ u v

theorem op1 (v16 : FVec Ideal S640x1024 .bf16) (v17 : Vec Ideal S1024 .f32) (v92 : Vec Ideal S400x640 .bf16)
    (u : Fin 50) (v : Fin 1024) :
    k0_pay21 (F := Ideal) v16 v17 v92 (ix4 0 0 u v) = k0_pay19 (F := Ideal) v16 v17 v92 (ix2 (row 1 u) v) := by
  unfold k0_pay21
  exact outSlab_apply 50 1 rfl (k0_pay19 v16 v17 v92) _ _ u v

theorem op2 (v16 : FVec Ideal S640x1024 .bf16) (v17 : Vec Ideal S1024 .f32) (v92 : Vec Ideal S400x640 .bf16)
    (u : Fin 50) (v : Fin 1024) :
    k0_pay22 (F := Ideal) v16 v17 v92 (ix4 0 0 u v) = k0_pay19 (F := Ideal) v16 v17 v92 (ix2 (row 2 u) v) := by
  unfold k0_pay22
  exact outSlab_apply 100 2 rfl (k0_pay19 v16 v17 v92) _ _ u v

theorem op3 (v16 : FVec Ideal S640x1024 .bf16) (v17 : Vec Ideal S1024 .f32) (v92 : Vec Ideal S400x640 .bf16)
    (u : Fin 50) (v : Fin 1024) :
    k0_pay1 (F := Ideal) (k0_pay23 v16 v17 v92) (ix4 0 0 u v) = k0_pay19 (F := Ideal) v16 v17 v92 (ix2 (row 3 u) v) := by
  unfold k0_pay1 k0_pay23
  exact outSlab_apply 150 3 rfl (k0_pay19 v16 v17 v92) _ _ u v

theorem op4 (v96 : FVec Ideal S400x1024 .f32) (u : Fin 50) (v : Fin 1024) :
    k0_pay2 (F := Ideal) v96 (ix4 0 0 u v) = v96 (ix2 (row 4 u) v) := by
  unfold k0_pay2
  exact outSlab_apply 200 4 rfl v96 _ _ u v

theorem op5 (v96 : FVec Ideal S400x1024 .f32) (u : Fin 50) (v : Fin 1024) :
    k0_pay3 (F := Ideal) v96 (ix4 0 0 u v) = v96 (ix2 (row 5 u) v) := by
  unfold k0_pay3
  exact outSlab_apply 250 5 rfl v96 _ _ u v

theorem op6 (v96 : FVec Ideal S400x1024 .f32) (u : Fin 50) (v : Fin 1024) :
    k0_pay4 (F := Ideal) v96 (ix4 0 0 u v) = v96 (ix2 (row 6 u) v) := by
  unfold k0_pay4
  exact outSlab_apply 300 6 rfl v96 _ _ u v

theorem op7 (v96 : FVec Ideal S400x1024 .f32) (u : Fin 50) (v : Fin 1024) :
    k0_pay5 (F := Ideal) v96 (ix4 0 0 u v) = v96 (ix2 (row 7 u) v) := by
  unfold k0_pay5
  exact outSlab_apply 350 7 rfl v96 _ _ u v

end Cert.KernelIdeal.PayValue

end
-- ==== Proof.CaseValue.lean ====
/-
  What one run of the kernel body leaves behind, as values over the extended reals.

  The body stores eight slabs of joint activations into a 400-row scratch, reads the scratch back whole,
  multiplies by the vocabulary matrix, and stores the product's eight 50-row slabs into the output block. Read
  back, the scratch is ONE function of its row index (row `50·k + u` is `tanh(fused(k,·) + pdec(u,·))`), and so
  is the output block (entry `(0, r, u, v)` is the product's row `50·r + u`). At a grid point that begins a batch
  row the body first stores the decoder projection and uses it; elsewhere it uses what the scratch already holds.
-/
import proofs.«142737_j32908039422062_1_alg».proof.Proof.Gen.KernelIdeal.Frame
import proofs.«142737_j32908039422062_1_alg».proof.Proof.PayValue
import Idealize.ShloMosaic.Lib.Pipeline.Value
import Idealize.ShloMosaic.Lib.Tactic

set_option maxRecDepth 16384

noncomputable section

namespace Cert.KernelIdeal.CaseValue

open Cert.KernelIdeal Cert.KernelIdeal.Gen Cert.KernelIdeal.PayValue
open Idealize.ShloMosaic Idealize.ShloMosaic.TcCoe Idealize.ShloMosaic.ValueIdx Idealize.SL.Sem
open scoped BigOperators

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The joint scratch read back -/

/-- Row `r` of the joint activations, at fusion coordinate `f`: slab `r / 50` of the fused block against decoder
    step `r % 50`. -/
def jointAt (v26 : FVec Ideal S8x640 .f32) (pd : Vec Ideal S50x640 .f32) (r : Fin 400) (f : Fin 640) : EReal :=
  Ideal.tanh (v26 (ix2 (⟨r.val / 50, by have := r.isLt; omega⟩ : Fin 8) f) + pd (ix2 (⟨r.val % 50, by omega⟩ : Fin 50) f))

theorem jointAt_row (v26 : FVec Ideal S8x640 .f32) (pd : Vec Ideal S50x640 .f32) (k : Fin 8) (u : Fin 50) (f : Fin 640) :
    jointAt v26 pd (row k u) f = Ideal.tanh (v26 (ix2 k f) + pd (ix2 u f)) := by
  have hk : (⟨(row k u).val / 50, by have := (row k u).isLt; omega⟩ : Fin 8) = k :=
    Fin.ext (by show (50 * k.val + u.val) / 50 = k.val; have := u.isLt; omega)
  have hu : (⟨(row k u).val % 50, by omega⟩ : Fin 50) = u :=
    Fin.ext (by show (50 * k.val + u.val) % 50 = u.val; have := u.isLt; omega)
  unfold jointAt
  rw [hk, hu]

/-- The joint activations of one grid point as ONE function on the 400 × 640 scratch. -/
def jointOf (v26 : FVec Ideal S8x640 .f32) (pd : Vec Ideal S50x640 .f32) : Vec Ideal S400x640 .bf16 :=
  fun y => jointAt v26 pd ⟨(y 0).val, idx2_lt0 y⟩ ⟨(y 1).val, idx2_lt1 y⟩

theorem jointOf_ix2 (v26 : FVec Ideal S8x640 .f32) (pd : Vec Ideal S50x640 .f32) (r : Fin 400) (f : Fin 640) :
    jointOf v26 pd (ix2 r f) = jointAt v26 pd r f := rfl

/-- The eight slab stores into the joint scratch, the last store first. -/
def jointL (x0 x1 : Vec Ideal S1x8x512 .f32) (x3 x5 : Vec Ideal S512x640 .bf16) (x4 x6 : Vec Ideal S640 .f32) (pd : Vec Ideal S50x640 .f32) : List (View.Piece (Elt Ideal) S400x640 .bf16) :=
  [⟨Rect.unit ![350, 0] ![50, 640] inb_S400x640_S50x640_350_0, k0_pay18 (k0_pay8 x0 x1 x3 x5 x4 x6) pd⟩,
   ⟨Rect.unit ![300, 0] ![50, 640] inb_S400x640_S50x640_300_0, k0_pay17 pd (k0_pay16 (k0_pay8 x0 x1 x3 x5 x4 x6))⟩,
   ⟨Rect.unit ![250, 0] ![50, 640] inb_S400x640_S50x640_250_0, k0_pay15 (k0_pay8 x0 x1 x3 x5 x4 x6) pd⟩,
   ⟨Rect.unit ![200, 0] ![50, 640] inb_S400x640_S50x640_200_0, k0_pay14 (k0_pay8 x0 x1 x3 x5 x4 x6) pd⟩,
   ⟨Rect.unit ![150, 0] ![50, 640] inb_S400x640_S50x640_150_0, k0_pay13 (k0_pay8 x0 x1 x3 x5 x4 x6) pd⟩,
   ⟨Rect.unit ![100, 0] ![50, 640] inb_S400x640_S50x640_100_0, k0_pay12 (k0_pay8 x0 x1 x3 x5 x4 x6) pd⟩,
   ⟨Rect.unit ![50, 0] ![50, 640] inb_S400x640_S50x640_50_0, k0_pay11 (k0_pay8 x0 x1 x3 x5 x4 x6) pd⟩,
   ⟨Rect.unit ![0, 0] ![50, 640] inb_S400x640_S50x640_0_0, k0_pay10 (k0_pay9 x0 x1 x3 x5 x4 x6 pd)⟩]

/-- A coordinate of the 400 × 640 scratch under slab `k`'s rectangle: row `50·k + u`, column `f`. -/
theorem slab_emb (k : Fin 8) (off : Fin 2 → Nat) (hoff : off = ![50 * k.val, 0])
    (inb : ∀ a, off a + (![50, 640] : Fin 2 → Nat) a ≤ S400x640.size a) (u : Fin 50) (f : Fin 640) :
    (Rect.unit (s := S400x640) off ![50, 640] inb).emb (ix2 u f) = ix2 (row k u) f := by
  subst hoff
  funext a
  apply Fin.ext
  match a with
  | ⟨0, _⟩ => show 50 * k.val + 1 * u.val = 50 * k.val + u.val; omega
  | ⟨1, _⟩ => show 0 + 1 * f.val = f.val; omega

/-- Every slab is the block of `jointOf` its rectangle names. -/
theorem joint_pieces (x0 x1 : Vec Ideal S1x8x512 .f32) (x3 x5 : Vec Ideal S512x640 .bf16) (x4 x6 : Vec Ideal S640 .f32) (pd : Vec Ideal S50x640 .f32) :
    ∀ p ∈ jointL x0 x1 x3 x5 x4 x6 pd, ∀ x : p.1.shape.Idx,
      p.2 x = jointOf (k0_pay8 (F := Ideal) x0 x1 x3 x5 x4 x6) pd (p.1.emb x) := by
  intro p hp x
  simp only [jointL, List.mem_cons, List.not_mem_nil, or_false] at hp
  rcases hp with rfl | rfl | rfl | rfl | rfl | rfl | rfl | rfl
  all_goals obtain ⟨u, f, rfl⟩ : ∃ (u : Fin 50) (f : Fin 640), x = ix2 u f := ⟨x 0, x 1, eq_ix2 x⟩
  · exact (jp7 _ pd u f).trans ((jointAt_row _ pd 7 u f).symm.trans ((jointOf_ix2 _ pd (row 7 u) f).symm.trans
      (congrArg (jointOf _ pd) (slab_emb 7 ![350, 0] rfl inb_S400x640_S50x640_350_0 u f)).symm))
  · exact (jp6 _ pd u f).trans ((jointAt_row _ pd 6 u f).symm.trans ((jointOf_ix2 _ pd (row 6 u) f).symm.trans
      (congrArg (jointOf _ pd) (slab_emb 6 ![300, 0] rfl inb_S400x640_S50x640_300_0 u f)).symm))
  · exact (jp5 _ pd u f).trans ((jointAt_row _ pd 5 u f).symm.trans ((jointOf_ix2 _ pd (row 5 u) f).symm.trans
      (congrArg (jointOf _ pd) (slab_emb 5 ![250, 0] rfl inb_S400x640_S50x640_250_0 u f)).symm))
  · exact (jp4 _ pd u f).trans ((jointAt_row _ pd 4 u f).symm.trans ((jointOf_ix2 _ pd (row 4 u) f).symm.trans
      (congrArg (jointOf _ pd) (slab_emb 4 ![200, 0] rfl inb_S400x640_S50x640_200_0 u f)).symm))
  · exact (jp3 _ pd u f).trans ((jointAt_row _ pd 3 u f).symm.trans ((jointOf_ix2 _ pd (row 3 u) f).symm.trans
      (congrArg (jointOf _ pd) (slab_emb 3 ![150, 0] rfl inb_S400x640_S50x640_150_0 u f)).symm))
  · exact (jp2 _ pd u f).trans ((jointAt_row _ pd 2 u f).symm.trans ((jointOf_ix2 _ pd (row 2 u) f).symm.trans
      (congrArg (jointOf _ pd) (slab_emb 2 ![100, 0] rfl inb_S400x640_S50x640_100_0 u f)).symm))
  · exact (jp1 _ pd u f).trans ((jointAt_row _ pd 1 u f).symm.trans ((jointOf_ix2 _ pd (row 1 u) f).symm.trans
      (congrArg (jointOf _ pd) (slab_emb 1 ![50, 0] rfl inb_S400x640_S50x640_50_0 u f)).symm))
  · exact (jp0 x0 x1 x3 x5 x4 x6 pd u f).trans ((jointAt_row _ pd 0 u f).symm.trans ((jointOf_ix2 _ pd (row 0 u) f).symm.trans
      (congrArg (jointOf _ pd) (slab_emb 0 ![0, 0] rfl inb_S400x640_S50x640_0_0 u f)).symm))

/-- The eight slabs tile the scratch. -/
theorem joint_cover (x0 x1 : Vec Ideal S1x8x512 .f32) (x3 x5 : Vec Ideal S512x640 .bf16) (x4 x6 : Vec Ideal S640 .f32) (pd : Vec Ideal S50x640 .f32) (y : S400x640.Idx) :
    ∃ p ∈ jointL x0 x1 x3 x5 x4 x6 pd, y ∈ p.1.set :=
  View.cover_of_tiledL (jointL x0 x1 x3 x5 x4 x6 pd) S50x640.size (by sl_kernel_rfl) y

/-- So the scratch read back whole, after the eight stores, is `jointOf`. -/
theorem joint_read {κ : Kind} {sp : Space} (v : View sig κ sp S400x640 .bf16) (x0 x1 : Vec Ideal S1x8x512 .f32) (x3 x5 : Vec Ideal S512x640 .bf16) (x4 x6 : Vec Ideal S640 .f32) (pd : Vec Ideal S50x640 .f32) :
    v.readCov (jointL x0 x1 x3 x5 x4 x6 pd) (Rect.unit ![0, 0] ![400, 640] inb_S400x640_S400x640_0_0).toLoadRect
      = jointOf (k0_pay8 (F := Ideal) x0 x1 x3 x5 x4 x6) pd := by
  rw [View.readCov_eq_canon_ld _ _ _ (joint_cover x0 x1 x3 x5 x4 x6 pd), View.ld_unit_zero (S := S400x640) hz2]
  funext y
  exact View.canon_apply_of_pieces _ _ (joint_pieces x0 x1 x3 x5 x4 x6 pd) y (joint_cover x0 x1 x3 x5 x4 x6 pd y)

/-! ## The output block -/

/-- The vocabulary product of a 400-row operand laid out as the output block: entry `(·, r, u, v)` is the
    product's row `50·r + u` at column `v`. -/
def prodAt (v16 : FVec Ideal S640x1024 .bf16) (v17 : Vec Ideal S1024 .f32) (v92 : Vec Ideal S400x640 .bf16) :
    Vec Ideal S1x8x50x1024 .f32 :=
  fun y => k0_pay19 (F := Ideal) v16 v17 v92
    (ix2 (⟨50 * (y 1).val + (y 2).val, by
        have h1 : (y 1).val < 8 := (y 1).isLt
        have h2 : (y 2).val < 50 := (y 2).isLt
        omega⟩ : Fin 400) (⟨(y 3).val, (y 3).isLt⟩ : Fin 1024))

theorem prodAt_ix4 (v16 : FVec Ideal S640x1024 .bf16) (v17 : Vec Ideal S1024 .f32) (v92 : Vec Ideal S400x640 .bf16)
    (r : Fin 8) (u : Fin 50) (v : Fin 1024) :
    prodAt v16 v17 v92 (ix4 0 r u v) = k0_pay19 (F := Ideal) v16 v17 v92 (ix2 (row r u) v) := rfl

/-- The eight slab stores into the output block, the last store first. -/
def outL (v16 : FVec Ideal S640x1024 .bf16) (v17 : Vec Ideal S1024 .f32) (v92 : Vec Ideal S400x640 .bf16) :
    List (View.Piece (Elt Ideal) S1x8x50x1024 .f32) :=
  [⟨Rect.unit ![0, 7, 0, 0] ![1, 1, 50, 1024] inb_S1x8x50x1024_S1x1x50x1024_0_7_0_0, k0_pay5 (k0_pay19 v16 v17 v92)⟩,
   ⟨Rect.unit ![0, 6, 0, 0] ![1, 1, 50, 1024] inb_S1x8x50x1024_S1x1x50x1024_0_6_0_0, k0_pay4 (k0_pay19 v16 v17 v92)⟩,
   ⟨Rect.unit ![0, 5, 0, 0] ![1, 1, 50, 1024] inb_S1x8x50x1024_S1x1x50x1024_0_5_0_0, k0_pay3 (k0_pay19 v16 v17 v92)⟩,
   ⟨Rect.unit ![0, 4, 0, 0] ![1, 1, 50, 1024] inb_S1x8x50x1024_S1x1x50x1024_0_4_0_0, k0_pay2 (k0_pay19 v16 v17 v92)⟩,
   ⟨Rect.unit ![0, 3, 0, 0] ![1, 1, 50, 1024] inb_S1x8x50x1024_S1x1x50x1024_0_3_0_0, k0_pay1 (k0_pay23 v16 v17 v92)⟩,
   ⟨Rect.unit ![0, 2, 0, 0] ![1, 1, 50, 1024] inb_S1x8x50x1024_S1x1x50x1024_0_2_0_0, k0_pay22 v16 v17 v92⟩,
   ⟨Rect.unit ![0, 1, 0, 0] ![1, 1, 50, 1024] inb_S1x8x50x1024_S1x1x50x1024_0_1_0_0, k0_pay21 v16 v17 v92⟩,
   ⟨Rect.unit ![0, 0, 0, 0] ![1, 1, 50, 1024] inb_S1x8x50x1024_S1x1x50x1024_0_0_0_0, k0_pay20 v16 v17 v92⟩]

/-- A coordinate of the output block under slab `k`'s rectangle. -/
theorem oslab_emb (k : Fin 8) (off : Fin 4 → Nat) (hoff : off = ![0, k.val, 0, 0])
    (inb : ∀ a, off a + (![1, 1, 50, 1024] : Fin 4 → Nat) a ≤ S1x8x50x1024.size a) (u : Fin 50) (v : Fin 1024) :
    (Rect.unit (s := S1x8x50x1024) off ![1, 1, 50, 1024] inb).emb (ix4 0 0 u v) = ix4 0 k u v := by
  subst hoff
  funext a
  apply Fin.ext
  match a with
  | ⟨0, _⟩ => show 0 + 1 * 0 = 0; omega
  | ⟨1, _⟩ => show k.val + 1 * 0 = k.val; omega
  | ⟨2, _⟩ => show 0 + 1 * u.val = u.val; omega
  | ⟨3, _⟩ => show 0 + 1 * v.val = v.val; omega

/-- Every output slab is the block of `prodAt` its rectangle names. -/
theorem out_pieces (v16 : FVec Ideal S640x1024 .bf16) (v17 : Vec Ideal S1024 .f32) (v92 : Vec Ideal S400x640 .bf16) :
    ∀ p ∈ outL v16 v17 v92, ∀ x : p.1.shape.Idx, p.2 x = prodAt v16 v17 v92 (p.1.emb x) := by
  intro p hp x
  simp only [outL, List.mem_cons, List.not_mem_nil, or_false] at hp
  rcases hp with rfl | rfl | rfl | rfl | rfl | rfl | rfl | rfl
  all_goals obtain ⟨a, b, u, v, rfl⟩ : ∃ (a b : Fin 1) (u : Fin 50) (v : Fin 1024), x = ix4 a b u v :=
    ⟨x 0, x 1, x 2, x 3, eq_ix4 x⟩
  all_goals obtain rfl : a = 0 := Subsingleton.elim _ _
  all_goals obtain rfl : b = 0 := Subsingleton.elim _ _
  · exact (op7 _ u v).trans ((prodAt_ix4 v16 v17 v92 7 u v).symm.trans
      (congrArg (prodAt v16 v17 v92) (oslab_emb 7 ![0, 7, 0, 0] rfl inb_S1x8x50x1024_S1x1x50x1024_0_7_0_0 u v)).symm)
  · exact (op6 _ u v).trans ((prodAt_ix4 v16 v17 v92 6 u v).symm.trans
      (congrArg (prodAt v16 v17 v92) (oslab_emb 6 ![0, 6, 0, 0] rfl inb_S1x8x50x1024_S1x1x50x1024_0_6_0_0 u v)).symm)
  · exact (op5 _ u v).trans ((prodAt_ix4 v16 v17 v92 5 u v).symm.trans
      (congrArg (prodAt v16 v17 v92) (oslab_emb 5 ![0, 5, 0, 0] rfl inb_S1x8x50x1024_S1x1x50x1024_0_5_0_0 u v)).symm)
  · exact (op4 _ u v).trans ((prodAt_ix4 v16 v17 v92 4 u v).symm.trans
      (congrArg (prodAt v16 v17 v92) (oslab_emb 4 ![0, 4, 0, 0] rfl inb_S1x8x50x1024_S1x1x50x1024_0_4_0_0 u v)).symm)
  · exact (op3 v16 v17 v92 u v).trans ((prodAt_ix4 v16 v17 v92 3 u v).symm.trans
      (congrArg (prodAt v16 v17 v92) (oslab_emb 3 ![0, 3, 0, 0] rfl inb_S1x8x50x1024_S1x1x50x1024_0_3_0_0 u v)).symm)
  · exact (op2 v16 v17 v92 u v).trans ((prodAt_ix4 v16 v17 v92 2 u v).symm.trans
      (congrArg (prodAt v16 v17 v92) (oslab_emb 2 ![0, 2, 0, 0] rfl inb_S1x8x50x1024_S1x1x50x1024_0_2_0_0 u v)).symm)
  · exact (op1 v16 v17 v92 u v).trans ((prodAt_ix4 v16 v17 v92 1 u v).symm.trans
      (congrArg (prodAt v16 v17 v92) (oslab_emb 1 ![0, 1, 0, 0] rfl inb_S1x8x50x1024_S1x1x50x1024_0_1_0_0 u v)).symm)
  · exact (op0 v16 v17 v92 u v).trans ((prodAt_ix4 v16 v17 v92 0 u v).symm.trans
      (congrArg (prodAt v16 v17 v92) (oslab_emb 0 ![0, 0, 0, 0] rfl inb_S1x8x50x1024_S1x1x50x1024_0_0_0_0 u v)).symm)

/-- The eight output slabs tile the block. -/
theorem out_cover (v16 : FVec Ideal S640x1024 .bf16) (v17 : Vec Ideal S1024 .f32) (v92 : Vec Ideal S400x640 .bf16)
    (y : S1x8x50x1024.Idx) : ∃ p ∈ outL v16 v17 v92, y ∈ p.1.set :=
  View.cover_of_tiledL (outL v16 v17 v92) S1x1x50x1024.size (by sl_kernel_rfl) y

/-- So the output block the body leaves is `prodAt`. -/
theorem out_canon (v16 : FVec Ideal S640x1024 .bf16) (v17 : Vec Ideal S1024 .f32) (v92 : Vec Ideal S400x640 .bf16) :
    View.canon (outL v16 v17 v92) = prodAt v16 v17 v92 :=
  funext fun y => View.canon_apply_of_pieces _ _ (out_pieces v16 v17 v92) y (out_cover v16 v17 v92 y)

/-- The output block of one grid point as a function of the blocks it loaded and of the decoder projection `pd` it
    found in (or first stored to) the carried scratch. -/
def outOf (x0 x1 : Vec Ideal S1x8x512 .f32) (x3 x5 : Vec Ideal S512x640 .bf16) (x4 x6 : Vec Ideal S640 .f32) (x9 : Vec Ideal S640x1024 .bf16) (x10 : Vec Ideal S1024 .f32) (pd : Vec Ideal S50x640 .f32) :
    Vec Ideal S1x8x50x1024 .f32 :=
  prodAt x9 x10 (jointOf (k0_pay8 (F := Ideal) x0 x1 x3 x5 x4 x6) pd)

/-- Entry `(0, r, u, v)` of the output block: `Σ_f tanh(fused(r,f) + pd(u,f))·W_out(f,v) + b_out(v)`. -/
theorem outOf_apply (x0 x1 : Vec Ideal S1x8x512 .f32) (x3 x5 : Vec Ideal S512x640 .bf16) (x4 x6 : Vec Ideal S640 .f32) (x9 : Vec Ideal S640x1024 .bf16) (x10 : Vec Ideal S1024 .f32) (pd : Vec Ideal S50x640 .f32)
    (r : Fin 8) (u : Fin 50) (v : Fin 1024) :
    outOf x0 x1 x3 x5 x4 x6 x9 x10 pd (ix4 0 r u v)
      = (∑ f : Fin 640, Ideal.tanh (fusedBlk x0 x1 x3 x5 x4 x6 r f + pd (ix2 u f)) * x9 (ix2 f v)) + x10 (ix1 v) := by
  unfold outOf
  rw [prodAt_ix4, pay19_apply]
  congr 1
  refine Finset.sum_congr rfl fun f _ => ?_
  rw [jointOf_ix2, jointAt_row, pay8_apply]

/-! ## The two control cases -/

/-- At a grid point that begins a batch row the body leaves the decoder projection in the carried scratch. -/
theorem sout_A (c : Dev nD) (i : grid0.Coords) (arg2 : Memref sig .tc .vmem S1x8x512 .f32) (harg2 : arg2.IsWhole) (arg3 : Memref sig .tc .vmem S1x8x512 .f32) (harg3 : arg3.IsWhole) (arg4 : Memref sig .tc .vmem S1x50x512 .f32) (harg4 : arg4.IsWhole) (arg5 : Memref sig .tc .vmem S512x640 .bf16) (harg5 : arg5.IsWhole) (arg6 : Memref sig .tc .vmem S640 .f32) (harg6 : arg6.IsWhole) (arg7 : Memref sig .tc .vmem S512x640 .bf16) (harg7 : arg7.IsWhole) (arg8 : Memref sig .tc .vmem S640 .f32) (harg8 : arg8.IsWhole) (arg9 : Memref sig .tc .vmem S512x640 .bf16) (harg9 : arg9.IsWhole) (arg10 : Memref sig .tc .vmem S640 .f32) (harg10 : arg10.IsWhole) (arg11 : Memref sig .tc .vmem S640x1024 .bf16) (harg11 : arg11.IsWhole) (arg12 : Memref sig .tc .vmem S1024 .f32) (harg12 : arg12.IsWhole) (arg13 : Memref sig .tc .vmem S1x8x50x1024 .f32) (harg13 : arg13.IsWhole) (arg14 : Memref sig .tc .vmem S50x640 .f32) (harg14 : arg14.IsWhole) (arg15 : Memref sig .tc .vmem S400x640 .bf16) (harg15 : arg15.IsWhole) (hc0 : cond0_0 i) (x0 : Vec Ideal S1x8x512 .f32) (x1 : Vec Ideal S1x8x512 .f32) (x2 : Vec Ideal S1x50x512 .f32) (x3 : Vec Ideal S512x640 .bf16) (x4 : Vec Ideal S640 .f32) (x5 : Vec Ideal S512x640 .bf16) (x6 : Vec Ideal S640 .f32) (x7 : Vec Ideal S512x640 .bf16) (x8 : Vec Ideal S640 .f32) (x9 : Vec Ideal S640x1024 .bf16) (x10 : Vec Ideal S1024 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay6 (F := Ideal) x2 x7 x8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz2]
  simp only [View.readAt_eq_ld, harg4.read_unread, harg9.read_unread, harg10.read_unread,
    View.ld_unit_zero (S := S1x50x512) hz3, View.ld_unit_zero (S := S512x640) hz2, View.ld_unit_zero (S := S640) hz1]

/-- … and its output block is `outOf` at that projection. -/
theorem out_A (c : Dev nD) (i : grid0.Coords) (arg2 : Memref sig .tc .vmem S1x8x512 .f32) (harg2 : arg2.IsWhole) (arg3 : Memref sig .tc .vmem S1x8x512 .f32) (harg3 : arg3.IsWhole) (arg4 : Memref sig .tc .vmem S1x50x512 .f32) (harg4 : arg4.IsWhole) (arg5 : Memref sig .tc .vmem S512x640 .bf16) (harg5 : arg5.IsWhole) (arg6 : Memref sig .tc .vmem S640 .f32) (harg6 : arg6.IsWhole) (arg7 : Memref sig .tc .vmem S512x640 .bf16) (harg7 : arg7.IsWhole) (arg8 : Memref sig .tc .vmem S640 .f32) (harg8 : arg8.IsWhole) (arg9 : Memref sig .tc .vmem S512x640 .bf16) (harg9 : arg9.IsWhole) (arg10 : Memref sig .tc .vmem S640 .f32) (harg10 : arg10.IsWhole) (arg11 : Memref sig .tc .vmem S640x1024 .bf16) (harg11 : arg11.IsWhole) (arg12 : Memref sig .tc .vmem S1024 .f32) (harg12 : arg12.IsWhole) (arg13 : Memref sig .tc .vmem S1x8x50x1024 .f32) (harg13 : arg13.IsWhole) (arg14 : Memref sig .tc .vmem S50x640 .f32) (harg14 : arg14.IsWhole) (arg15 : Memref sig .tc .vmem S400x640 .bf16) (harg15 : arg15.IsWhole) (hc0 : cond0_0 i) (x0 : Vec Ideal S1x8x512 .f32) (x1 : Vec Ideal S1x8x512 .f32) (x2 : Vec Ideal S1x50x512 .f32) (x3 : Vec Ideal S512x640 .bf16) (x4 : Vec Ideal S640 .f32) (x5 : Vec Ideal S512x640 .bf16) (x6 : Vec Ideal S640 .f32) (x7 : Vec Ideal S512x640 .bf16) (x8 : Vec Ideal S640 .f32) (x9 : Vec Ideal S640x1024 .bf16) (x10 : Vec Ideal S1024 .f32) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
      = outOf x0 x1 x3 x5 x4 x6 x9 x10 (k0_pay6 (F := Ideal) x2 x7 x8) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S1x8x512) hz3, View.ld_unit_zero (S := S1x50x512) hz3, View.ld_unit_zero (S := S512x640) hz2,
    View.ld_unit_zero (S := S640x1024) hz2, View.ld_unit_zero (S := S640) hz1, View.ld_unit_zero (S := S1024) hz1,
    View.readCov_unit_zero (S := S50x640) _ hz2]
  show View.canon (outL (k0_pay7 x9) x10 (arg15.view.readCov (jointL x0 x1 x3 x5 x4 x6 (k0_pay6 x2 x7 x8))
    (Rect.unit (s := S400x640) ![0, 0] ![400, 640] inb_S400x640_S400x640_0_0).toLoadRect)) = _
  rw [out_canon, joint_read, pay7_eq]
  rfl

/-- Elsewhere the body finds the projection `xs0` in the carried scratch, leaves it there, and its output block is
    `outOf` at it. -/
theorem out_B (c : Dev nD) (i : grid0.Coords) (arg2 : Memref sig .tc .vmem S1x8x512 .f32) (harg2 : arg2.IsWhole) (arg3 : Memref sig .tc .vmem S1x8x512 .f32) (harg3 : arg3.IsWhole) (arg4 : Memref sig .tc .vmem S1x50x512 .f32) (harg4 : arg4.IsWhole) (arg5 : Memref sig .tc .vmem S512x640 .bf16) (harg5 : arg5.IsWhole) (arg6 : Memref sig .tc .vmem S640 .f32) (harg6 : arg6.IsWhole) (arg7 : Memref sig .tc .vmem S512x640 .bf16) (harg7 : arg7.IsWhole) (arg8 : Memref sig .tc .vmem S640 .f32) (harg8 : arg8.IsWhole) (arg9 : Memref sig .tc .vmem S512x640 .bf16) (harg9 : arg9.IsWhole) (arg10 : Memref sig .tc .vmem S640 .f32) (harg10 : arg10.IsWhole) (arg11 : Memref sig .tc .vmem S640x1024 .bf16) (harg11 : arg11.IsWhole) (arg12 : Memref sig .tc .vmem S1024 .f32) (harg12 : arg12.IsWhole) (arg13 : Memref sig .tc .vmem S1x8x50x1024 .f32) (harg13 : arg13.IsWhole) (arg14 : Memref sig .tc .vmem S50x640 .f32) (harg14 : arg14.IsWhole) (arg15 : Memref sig .tc .vmem S400x640 .bf16) (harg15 : arg15.IsWhole) (hc0 : ¬cond0_0 i) (x0 : Vec Ideal S1x8x512 .f32) (x1 : Vec Ideal S1x8x512 .f32) (x2 : Vec Ideal S1x50x512 .f32) (x3 : Vec Ideal S512x640 .bf16) (x4 : Vec Ideal S640 .f32) (x5 : Vec Ideal S512x640 .bf16) (x6 : Vec Ideal S640 .f32) (x7 : Vec Ideal S512x640 .bf16) (x8 : Vec Ideal S640 .f32) (x9 : Vec Ideal S640x1024 .bf16) (x10 : Vec Ideal S1024 .f32) (xs0 : Vec Ideal S50x640 .f32) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0
      = outOf x0 x1 x3 x5 x4 x6 x9 x10 xs0 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg14.read_unread,
    View.ld_unit_zero (S := S1x8x512) hz3, View.ld_unit_zero (S := S1x50x512) hz3, View.ld_unit_zero (S := S512x640) hz2,
    View.ld_unit_zero (S := S640x1024) hz2, View.ld_unit_zero (S := S640) hz1, View.ld_unit_zero (S := S1024) hz1,
    View.ld_unit_zero (S := S50x640) hz2]
  show View.canon (outL (k0_pay7 x9) x10 (arg15.view.readCov (jointL x0 x1 x3 x5 x4 x6 xs0)
    (Rect.unit (s := S400x640) ![0, 0] ![400, 640] inb_S400x640_S400x640_0_0).toLoadRect)) = _
  rw [out_canon, joint_read, pay7_eq]
  rfl

end Cert.KernelIdeal.CaseValue

end
-- ==== Proof.BlockRead.lean ====
/-
  The blocks the pipeline stages at a grid point, read at an index of the argument arrays.

  The grid has 8 × 25 points; point `t` is batch row `t / 25` and frame tile `t % 25`. The encoder and guide
  windows stage rows `8·(t % 25) … 8·(t % 25) + 7` of batch row `t / 25`; the decoder window stages the whole
  batch row `t / 25`; the weight and bias windows stage their whole arrays, the weights after a change of float
  format that is the identity on extended reals.
-/
import proofs.«142737_j32908039422062_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.BlockRead

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The batch row of grid point `t`. -/
def bOf (t : Fin cfg0.N) : Fin 8 := ⟨t.val / 25, by have h : t.val < 200 := lt_of_lt_of_eq t.isLt N_0; omega⟩

/-- The encoder frame of row `r` of grid point `t`'s tile. -/
def tOf (t : Fin cfg0.N) (r : Fin 8) : Fin 200 := ⟨8 * (t.val % 25) + r.val, by have := r.isLt; omega⟩

/-- The staged blocks at their literal types. -/
abbrev encBlk (c : Dev nD) (t : Fin cfg0.N) : Vec Ideal S1x8x512 .f32 := iblk m c 0 t
abbrev otBlk (c : Dev nD) (t : Fin cfg0.N) : Vec Ideal S1x8x512 .f32 := iblk m c 1 t
abbrev decBlk (c : Dev nD) (t : Fin cfg0.N) : Vec Ideal S1x50x512 .f32 := iblk m c 2 t
abbrev wencBlk (c : Dev nD) (t : Fin cfg0.N) : Vec Ideal S512x640 .bf16 := iblk m c 3 t
abbrev bencBlk (c : Dev nD) (t : Fin cfg0.N) : Vec Ideal S640 .f32 := iblk m c 4 t
abbrev wotBlk (c : Dev nD) (t : Fin cfg0.N) : Vec Ideal S512x640 .bf16 := iblk m c 5 t
abbrev botBlk (c : Dev nD) (t : Fin cfg0.N) : Vec Ideal S640 .f32 := iblk m c 6 t
abbrev wdecBlk (c : Dev nD) (t : Fin cfg0.N) : Vec Ideal S512x640 .bf16 := iblk m c 7 t
abbrev bdecBlk (c : Dev nD) (t : Fin cfg0.N) : Vec Ideal S640 .f32 := iblk m c 8 t
abbrev woutBlk (c : Dev nD) (t : Fin cfg0.N) : Vec Ideal S640x1024 .bf16 := iblk m c 9 t
abbrev boutBlk (c : Dev nD) (t : Fin cfg0.N) : Vec Ideal S1024 .f32 := iblk m c 10 t

/-- The argument arrays at their literal types. -/
abbrev encArr (c : Dev nD) : Vec Ideal S8x200x512 .f32 := m ((c : Thread nD τ).loc main_arg0)
abbrev decArr (c : Dev nD) : Vec Ideal S8x50x512 .f32 := m ((c : Thread nD τ).loc main_arg1)
abbrev otArr (c : Dev nD) : Vec Ideal S8x200x512 .f32 := m ((c : Thread nD τ).loc main_arg2)
abbrev wencArr (c : Dev nD) : Vec Ideal S512x640 .f32 := m ((c : Thread nD τ).loc main_arg3)
abbrev bencArr (c : Dev nD) : Vec Ideal S640 .f32 := m ((c : Thread nD τ).loc main_arg4)
abbrev wotArr (c : Dev nD) : Vec Ideal S512x640 .f32 := m ((c : Thread nD τ).loc main_arg5)
abbrev botArr (c : Dev nD) : Vec Ideal S640 .f32 := m ((c : Thread nD τ).loc main_arg6)
abbrev wdecArr (c : Dev nD) : Vec Ideal S512x640 .f32 := m ((c : Thread nD τ).loc main_arg7)
abbrev bdecArr (c : Dev nD) : Vec Ideal S640 .f32 := m ((c : Thread nD τ).loc main_arg8)
abbrev woutArr (c : Dev nD) : Vec Ideal S640x1024 .f32 := m ((c : Thread nD τ).loc main_arg9)
abbrev boutArr (c : Dev nD) : Vec Ideal S1024 .f32 := m ((c : Thread nD τ).loc main_arg10)

/-! ## The index maps over the grid

Each window's block index at grid point `t`, decided once for all 200 points: the encoder, guide and result
windows sit at `(t / 25, t % 25, 0[, 0])`, the decoder window at `(t / 25, 0, 0)`, every weight and bias window at
the origin. A block's coordinate on an axis is the block index times the block's extent plus the coordinate inside
the block. -/

private theorem idx_enc : ∀ t : Fin cfg0.N, win0_0.index t (0 : Fin 3) = t.val / 25
    ∧ win0_0.index t (1 : Fin 3) = t.val % 25 ∧ win0_0.index t (2 : Fin 3) = 0 :=
  (by decide +kernel : ∀ t : Fin grid0.N, _)

private theorem idx_ot : ∀ t : Fin cfg0.N, win0_1.index t (0 : Fin 3) = t.val / 25
    ∧ win0_1.index t (1 : Fin 3) = t.val % 25 ∧ win0_1.index t (2 : Fin 3) = 0 :=
  (by decide +kernel : ∀ t : Fin grid0.N, _)

private theorem idx_dec : ∀ t : Fin cfg0.N, win0_2.index t (0 : Fin 3) = t.val / 25
    ∧ win0_2.index t (1 : Fin 3) = 0 ∧ win0_2.index t (2 : Fin 3) = 0 :=
  (by decide +kernel : ∀ t : Fin grid0.N, _)

private theorem idx_wenc : ∀ t : Fin cfg0.N, win0_3.index t (0 : Fin 2) = 0 ∧ win0_3.index t (1 : Fin 2) = 0 :=
  (by decide +kernel : ∀ t : Fin grid0.N, _)

private theorem idx_benc : ∀ t : Fin cfg0.N, win0_4.index t (0 : Fin 1) = 0 :=
  (by decide +kernel : ∀ t : Fin grid0.N, _)

private theorem idx_wot : ∀ t : Fin cfg0.N, win0_5.index t (0 : Fin 2) = 0 ∧ win0_5.index t (1 : Fin 2) = 0 :=
  (by decide +kernel : ∀ t : Fin grid0.N, _)

private theorem idx_bot : ∀ t : Fin cfg0.N, win0_6.index t (0 : Fin 1) = 0 :=
  (by decide +kernel : ∀ t : Fin grid0.N, _)

private theorem idx_wdec : ∀ t : Fin cfg0.N, win0_7.index t (0 : Fin 2) = 0 ∧ win0_7.index t (1 : Fin 2) = 0 :=
  (by decide +kernel : ∀ t : Fin grid0.N, _)

private theorem idx_bdec : ∀ t : Fin cfg0.N, win0_8.index t (0 : Fin 1) = 0 :=
  (by decide +kernel : ∀ t : Fin grid0.N, _)

private theorem idx_wout : ∀ t : Fin cfg0.N, win0_9.index t (0 : Fin 2) = 0 ∧ win0_9.index t (1 : Fin 2) = 0 :=
  (by decide +kernel : ∀ t : Fin grid0.N, _)

private theorem idx_bout : ∀ t : Fin cfg0.N, win0_10.index t (0 : Fin 1) = 0 :=
  (by decide +kernel : ∀ t : Fin grid0.N, _)

private theorem idx_out : ∀ t : Fin cfg0.N, win0_11.index t (0 : Fin 4) = t.val / 25
    ∧ win0_11.index t (1 : Fin 4) = t.val % 25 ∧ win0_11.index t (2 : Fin 4) = 0 ∧ win0_11.index t (3 : Fin 4) = 0 :=
  (by decide +kernel : ∀ t : Fin grid0.N, _)

/-! ## The weight arrays as the region finds them

Each of the four weight arrays the region stages is the launched array after a narrowing change of float format,
which on extended reals is the identity. -/

private theorem V_wenc (c : Dev nD) :
    @Eq (FVec Ideal S512x640 .bf16) (V m c main_v0)
      (truncf .bf16 (show FVec Ideal S512x640 .f32 from m ((c : Thread nD τ).loc main_arg3)) bitsLt_bf16_f32) := by
  dsimp only [Gen.V, Gen.hostOps0]; after_results

private theorem V_wot (c : Dev nD) :
    @Eq (FVec Ideal S512x640 .bf16) (V m c main_v1)
      (truncf .bf16 (show FVec Ideal S512x640 .f32 from m ((c : Thread nD τ).loc main_arg5)) bitsLt_bf16_f32) := by
  dsimp only [Gen.V, Gen.hostOps0]; after_results

private theorem V_wdec (c : Dev nD) :
    @Eq (FVec Ideal S512x640 .bf16) (V m c main_v2)
      (truncf .bf16 (show FVec Ideal S512x640 .f32 from m ((c : Thread nD τ).loc main_arg7)) bitsLt_bf16_f32) := by
  dsimp only [Gen.V, Gen.hostOps0]; after_results

private theorem V_wout (c : Dev nD) :
    @Eq (FVec Ideal S640x1024 .bf16) (V m c main_v3)
      (truncf .bf16 (show FVec Ideal S640x1024 .f32 from m ((c : Thread nD τ).loc main_arg9)) bitsLt_bf16_f32) := by
  dsimp only [Gen.V, Gen.hostOps0]; after_results

/-! ## The blocks read at an index -/

theorem encBlk_apply (c : Dev nD) (t : Fin cfg0.N) (r : Fin 8) (e : Fin 512) :
    encBlk m c t (ix3 0 r e) = encArr m c (ix3 (bOf t) (tOf t r) e) := by
  obtain ⟨h0, h1, h2⟩ := idx_enc t
  show ((cfg0.win 0).blk t).view.read (Elt Ideal) (V m c main_arg0) (ix3 0 r e) = _
  rw [View.read_apply]
  show V m c main_arg0 _ = _
  rw [V_main_arg0]
  congr 1
  funext a
  apply Fin.ext
  match a with
  | ⟨0, _⟩ => show win0_0.index t (0 : Fin 3) * 1 + 1 * 0 = t.val / 25; omega
  | ⟨1, _⟩ => show win0_0.index t (1 : Fin 3) * 8 + 1 * r.val = 8 * (t.val % 25) + r.val; omega
  | ⟨2, _⟩ => show win0_0.index t (2 : Fin 3) * 512 + 1 * e.val = e.val; omega

theorem otBlk_apply (c : Dev nD) (t : Fin cfg0.N) (r : Fin 8) (d : Fin 512) :
    otBlk m c t (ix3 0 r d) = otArr m c (ix3 (bOf t) (tOf t r) d) := by
  obtain ⟨e0, e1, e2⟩ := idx_ot t
  show ((cfg0.win 1).blk t).view.read (Elt Ideal) (V m c main_arg2) (ix3 0 r d) = _
  rw [View.read_apply]
  show V m c main_arg2 _ = _
  rw [V_main_arg2]
  congr 1
  funext a
  apply Fin.ext
  match a with
  | ⟨0, _⟩ => show win0_1.index t (0 : Fin 3) * 1 + 1 * 0 = t.val / 25; omega
  | ⟨1, _⟩ => show win0_1.index t (1 : Fin 3) * 8 + 1 * r.val = 8 * (t.val % 25) + r.val; omega
  | ⟨2, _⟩ => show win0_1.index t (2 : Fin 3) * 512 + 1 * d.val = d.val; omega

theorem decBlk_apply (c : Dev nD) (t : Fin cfg0.N) (u : Fin 50) (d : Fin 512) :
    decBlk m c t (ix3 0 u d) = decArr m c (ix3 (bOf t) u d) := by
  obtain ⟨e0, e1, e2⟩ := idx_dec t
  show ((cfg0.win 2).blk t).view.read (Elt Ideal) (V m c main_arg1) (ix3 0 u d) = _
  rw [View.read_apply]
  show V m c main_arg1 _ = _
  rw [V_main_arg1]
  congr 1
  funext a
  apply Fin.ext
  match a with
  | ⟨0, _⟩ => show win0_2.index t (0 : Fin 3) * 1 + 1 * 0 = t.val / 25; omega
  | ⟨1, _⟩ => show win0_2.index t (1 : Fin 3) * 50 + 1 * u.val = u.val; omega
  | ⟨2, _⟩ => show win0_2.index t (2 : Fin 3) * 512 + 1 * d.val = d.val; omega

theorem wencBlk_apply (c : Dev nD) (t : Fin cfg0.N) (e : Fin 512) (f : Fin 640) :
    wencBlk m c t (ix2 e f) = wencArr m c (ix2 e f) := by
  obtain ⟨h0, h1⟩ := idx_wenc t
  show ((cfg0.win 3).blk t).view.read (Elt Ideal) (V m c main_v0) (ix2 e f) = _
  rw [View.read_apply]
  show (V m c main_v0 : FVec Ideal S512x640 .bf16) _ = _
  rw [V_wenc, truncf_apply]
  congr 1
  funext a
  apply Fin.ext
  match a with
  | ⟨0, _⟩ => show win0_3.index t (0 : Fin 2) * 512 + 1 * e.val = e.val; omega
  | ⟨1, _⟩ => show win0_3.index t (1 : Fin 2) * 640 + 1 * f.val = f.val; omega

theorem bencBlk_apply (c : Dev nD) (t : Fin cfg0.N) (f : Fin 640) :
    bencBlk m c t (ix1 f) = bencArr m c (ix1 f) := by
  have e0 := idx_benc t
  show ((cfg0.win 4).blk t).view.read (Elt Ideal) (V m c main_arg4) (ix1 f) = _
  rw [View.read_apply]
  show V m c main_arg4 _ = _
  rw [V_main_arg4]
  congr 1
  funext a
  apply Fin.ext
  match a with
  | ⟨0, _⟩ => show win0_4.index t (0 : Fin 1) * 640 + 1 * f.val = f.val; omega

theorem wotBlk_apply (c : Dev nD) (t : Fin cfg0.N) (d : Fin 512) (f : Fin 640) :
    wotBlk m c t (ix2 d f) = wotArr m c (ix2 d f) := by
  obtain ⟨e0, e1⟩ := idx_wot t
  show ((cfg0.win 5).blk t).view.read (Elt Ideal) (V m c main_v1) (ix2 d f) = _
  rw [View.read_apply]
  show (V m c main_v1 : FVec Ideal S512x640 .bf16) _ = _
  rw [V_wot, truncf_apply]
  congr 1
  funext a
  apply Fin.ext
  match a with
  | ⟨0, _⟩ => show win0_5.index t (0 : Fin 2) * 512 + 1 * d.val = d.val; omega
  | ⟨1, _⟩ => show win0_5.index t (1 : Fin 2) * 640 + 1 * f.val = f.val; omega

theorem botBlk_apply (c : Dev nD) (t : Fin cfg0.N) (f : Fin 640) :
    botBlk m c t (ix1 f) = botArr m c (ix1 f) := by
  have e0 := idx_bot t
  show ((cfg0.win 6).blk t).view.read (Elt Ideal) (V m c main_arg6) (ix1 f) = _
  rw [View.read_apply]
  show V m c main_arg6 _ = _
  rw [V_main_arg6]
  congr 1
  funext a
  apply Fin.ext
  match a with
  | ⟨0, _⟩ => show win0_6.index t (0 : Fin 1) * 640 + 1 * f.val = f.val; omega

theorem wdecBlk_apply (c : Dev nD) (t : Fin cfg0.N) (d : Fin 512) (f : Fin 640) :
    wdecBlk m c t (ix2 d f) = wdecArr m c (ix2 d f) := by
  obtain ⟨e0, e1⟩ := idx_wdec t
  show ((cfg0.win 7).blk t).view.read (Elt Ideal) (V m c main_v2) (ix2 d f) = _
  rw [View.read_apply]
  show (V m c main_v2 : FVec Ideal S512x640 .bf16) _ = _
  rw [V_wdec, truncf_apply]
  congr 1
  funext a
  apply Fin.ext
  match a with
  | ⟨0, _⟩ => show win0_7.index t (0 : Fin 2) * 512 + 1 * d.val = d.val; omega
  | ⟨1, _⟩ => show win0_7.index t (1 : Fin 2) * 640 + 1 * f.val = f.val; omega

theorem bdecBlk_apply (c : Dev nD) (t : Fin cfg0.N) (f : Fin 640) :
    bdecBlk m c t (ix1 f) = bdecArr m c (ix1 f) := by
  have e0 := idx_bdec t
  show ((cfg0.win 8).blk t).view.read (Elt Ideal) (V m c main_arg8) (ix1 f) = _
  rw [View.read_apply]
  show V m c main_arg8 _ = _
  rw [V_main_arg8]
  congr 1
  funext a
  apply Fin.ext
  match a with
  | ⟨0, _⟩ => show win0_8.index t (0 : Fin 1) * 640 + 1 * f.val = f.val; omega

theorem woutBlk_apply (c : Dev nD) (t : Fin cfg0.N) (f : Fin 640) (v : Fin 1024) :
    woutBlk m c t (ix2 f v) = woutArr m c (ix2 f v) := by
  obtain ⟨e0, e1⟩ := idx_wout t
  show ((cfg0.win 9).blk t).view.read (Elt Ideal) (V m c main_v3) (ix2 f v) = _
  rw [View.read_apply]
  show (V m c main_v3 : FVec Ideal S640x1024 .bf16) _ = _
  rw [V_wout, truncf_apply]
  congr 1
  funext a
  apply Fin.ext
  match a with
  | ⟨0, _⟩ => show win0_9.index t (0 : Fin 2) * 640 + 1 * f.val = f.val; omega
  | ⟨1, _⟩ => show win0_9.index t (1 : Fin 2) * 1024 + 1 * v.val = v.val; omega

theorem boutBlk_apply (c : Dev nD) (t : Fin cfg0.N) (v : Fin 1024) :
    boutBlk m c t (ix1 v) = boutArr m c (ix1 v) := by
  have e0 := idx_bout t
  show ((cfg0.win 10).blk t).view.read (Elt Ideal) (V m c main_arg10) (ix1 v) = _
  rw [View.read_apply]
  show V m c main_arg10 _ = _
  rw [V_main_arg10]
  congr 1
  funext a
  apply Fin.ext
  match a with
  | ⟨0, _⟩ => show win0_10.index t (0 : Fin 1) * 1024 + 1 * v.val = v.val; omega

/-- An index of the result array inside grid point `t`'s output block: block coordinate `(0, r, u, v)` is array
    index `(t / 25, 8·(t % 25) + r, u, v)`. -/
theorem outBlk_emb (t : Fin cfg0.N) (r : Fin 8) (u : Fin 50) (v : Fin 1024) :
    ((cfg0.win 11).blk t).view.emb (ix4 0 r u v) = ix4 (bOf t) (tOf t r) u v := by
  obtain ⟨e0, e1, e2, e3⟩ := idx_out t
  funext a
  apply Fin.ext
  match a with
  | ⟨0, _⟩ => show win0_11.index t (0 : Fin 4) * 1 + 1 * 0 = t.val / 25; omega
  | ⟨1, _⟩ => show win0_11.index t (1 : Fin 4) * 8 + 1 * r.val = 8 * (t.val % 25) + r.val; omega
  | ⟨2, _⟩ => show win0_11.index t (2 : Fin 4) * 50 + 1 * u.val = u.val; omega
  | ⟨3, _⟩ => show win0_11.index t (3 : Fin 4) * 1024 + 1 * v.val = v.val; omega

end Cert.KernelIdeal.BlockRead

end
-- ==== Proof.Cover.lean ====
/-
  Every entry of the kernel's result lies in the output block of some grid point.

  The grid has 8 × 25 points in row-major order: point t has coordinates (t / 25, t % 25). The result window's block has
  extents [1, 8, 50, 1024] and sits at block index (t / 25, t % 25, 0, 0) of the [8, 200, 50, 1024] array, so it holds
  exactly the entries whose first coordinate is t / 25 and whose second lies in [8·(t % 25), 8·(t % 25) + 8), with any
  third and fourth coordinate. The entry (i₀, i₁, i₂, i₃) is therefore in the block of the point t = 25·i₀ + i₁ / 8
  (a point of the grid, since i₀ < 8 and i₁ / 8 < 25), and every point writes its block back.
-/
import proofs.«142737_j32908039422062_1_alg».proof.Proof.Gen.KernelIdeal.Frame
import Idealize.ShloMosaic.Lib.Pipeline.Value

noncomputable section

namespace Cert.KernelIdeal.Cover

open Cert.KernelIdeal Cert.KernelIdeal.Gen Idealize.ShloMosaic

/-- The result window's block index at each grid point, decided once over the 200 points: the point's two grid
    coordinates on the first two axes, zero on the last two. -/
theorem blockIndex : ∀ t : Fin cfg0.N, win0_11.index t (0 : Fin 4) = t.val / 25 ∧ win0_11.index t (1 : Fin 4) = t.val % 25
    ∧ win0_11.index t (2 : Fin 4) = 0 ∧ win0_11.index t (3 : Fin 4) = 0 :=
  (by decide +kernel : ∀ t : Fin grid0.N, win0_11.index t (0 : Fin 4) = t.val / 25 ∧ win0_11.index t (1 : Fin 4) = t.val % 25
    ∧ win0_11.index t (2 : Fin 4) = 0 ∧ win0_11.index t (3 : Fin 4) = 0)

/-- An entry of the result is in point `t`'s block iff, on each axis, its coordinate is in the block's range there:
    from block index × block extent, for one block extent. -/
theorem mem_block (t : Fin cfg0.N) (i : S8x200x50x1024.Idx) :
    i ∈ ((cfg0.win 11).blk t).view.set ↔ ∀ a : Fin 4, win0_11.index t a * S1x8x50x1024.size a ≤ (i a).val
      ∧ (i a).val < win0_11.index t a * S1x8x50x1024.size a + S1x8x50x1024.size a := by
  show i ∈ ((View.whole main_v4).slice (win0_11.rect t)).set ↔ _
  rw [View.set_slice_whole, Rect.mem_set_unit]
  exact Iff.rfl

/-- Every entry of the result is in the block of a point that writes it back: the point 25·i₀ + i₁ / 8. -/
theorem cover (i : S8x200x50x1024.Idx) : ∃ t : Fin cfg0.N, (cfg0.win 11).flush t = true ∧ i ∈ ((cfg0.win 11).blk t).view.set := by
  have h0 : (i 0).val < 8 := (i 0).isLt
  have h1 : (i 1).val < 200 := (i 1).isLt
  have h2 : (i 2).val < 50 := (i 2).isLt
  have h3 : (i 3).val < 1024 := (i 3).isLt
  have hN : cfg0.N = 200 := N_0
  obtain ⟨t, ht⟩ : ∃ t : Fin cfg0.N, t.val = 25 * (i 0).val + (i 1).val / 8 := ⟨⟨25 * (i 0).val + (i 1).val / 8, by omega⟩, rfl⟩
  obtain ⟨e0, e1, e2, e3⟩ := blockIndex t
  refine ⟨t, flush0_11 t, ?_⟩
  rw [mem_block]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 8 ≤ (i 1).val ∧ (i 1).val < win0_11.index t (1 : Fin 4) * 8 + 8; omega
  | ⟨2, _⟩ => show win0_11.index t (2 : Fin 4) * 50 ≤ (i 2).val ∧ (i 2).val < win0_11.index t (2 : Fin 4) * 50 + 50; omega
  | ⟨3, _⟩ => show win0_11.index t (3 : Fin 4) * 1024 ≤ (i 3).val ∧ (i 3).val < win0_11.index t (3 : Fin 4) * 1024 + 1024; omega

end Cert.KernelIdeal.Cover

end
-- ==== Proof.KernelValue.lean ====
/-
  The kernel's result array after the run, as one function of the argument arrays.

  Grid point `t` (batch row `t / 25`, frame tile `t % 25`) writes back the output block whose entry `(0, r, u, v)`
  is the logit of batch row `t / 25`, frame `8·(t % 25) + r`, decoder step `u`, vocabulary entry `v`. The carried
  scratch holds, after every point of a batch row, that row's decoder projection: it is stored at the row's first
  point and left alone at the other 24 — an induction along the grid. The blocks tile the result array, so the
  array ends as the specification's `logits` of the arguments.
-/
import proofs.«142737_j32908039422062_1_alg».proof.Proof.Gen.KernelIdeal.Value
import proofs.«142737_j32908039422062_1_alg».proof.Proof.Spec
import proofs.«142737_j32908039422062_1_alg».proof.Proof.CaseValue
import proofs.«142737_j32908039422062_1_alg».proof.Proof.BlockRead
import proofs.«142737_j32908039422062_1_alg».proof.Proof.Cover

noncomputable section

namespace Cert.KernelIdeal.KValue

open Cert.KernelIdeal Cert.KernelIdeal.Gen Cert.KernelIdeal.PayValue Cert.KernelIdeal.CaseValue Cert.KernelIdeal.BlockRead
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The specification's logits of this core's argument arrays. -/
abbrev result (c : Dev nD) : Vec Ideal S8x200x50x1024 .f32 :=
  Cert.Joint.logits (encArr m c) (decArr m c) (otArr m c) (wencArr m c) (bencArr m c) (wotArr m c) (botArr m c) (wdecArr m c) (bdecArr m c) (woutArr m c) (boutArr m c)

/-! ## The carried scratch holds the batch row's decoder projection -/

/-- The decoder projection block a batch row's first point stores is the specification's `pdecAt` of that row. -/
theorem pd_first (c : Dev nD) (t : Fin cfg0.N) (u : Fin 50) (f : Fin 640) :
    k0_pay6 (F := Ideal) (decBlk m c t) (wdecBlk m c t) (bdecBlk m c t) (ix2 u f)
      = Cert.Joint.pdecAt (decArr m c) (wdecArr m c) (bdecArr m c) (bOf t) u f := by
  have hd : ∀ d : Fin 512, decBlk m c t (ix3 0 u d) * wdecBlk m c t (ix2 d f)
      = decArr m c (ix3 (bOf t) u d) * wdecArr m c (ix2 d f) := fun d => by
    rw [decBlk_apply, wdecBlk_apply]
  rw [pay6_apply]
  unfold pdBlk Cert.Joint.pdecAt
  rw [bdecBlk_apply, Finset.sum_congr rfl (fun d _ => hd d)]

/-- After EVERY grid point the carried scratch holds the decoder projection of the point's batch row. -/
theorem scratch_eq (c : Dev nD) : ∀ (n : ℕ) (hn : n < cfg0.N) (u : Fin 50) (f : Fin 640),
    (outsAt0 m c n hn).2 (ix2 u f)
      = Cert.Joint.pdecAt (decArr m c) (wdecArr m c) (bdecArr m c) (bOf ⟨n, hn⟩) u f := by
  intro n
  induction n with
  | zero =>
    intro hn u f
    rw [outsAt0_A m c ⟨0, hn⟩ rfl]
    dsimp only
    rw [sout_A]
    exact pd_first m c ⟨0, hn⟩ u f
  | succ n ih =>
    intro hn u f
    by_cases h0 : (n + 1) % 25 = 0
    · rw [outsAt0_A m c ⟨n + 1, hn⟩ h0]
      dsimp only
      rw [sout_A]
      exact pd_first m c ⟨n + 1, hn⟩ u f
    · rw [outsAt0_B m c ⟨n + 1, hn⟩ h0]
      dsimp only
      unfold sout0_B_0
      have hb : bOf (⟨n + 1, hn⟩ : Fin cfg0.N) = bOf ⟨n, Nat.lt_of_succ_lt hn⟩ :=
        Fin.ext (by show (n + 1) / 25 = n / 25; omega)
      rw [hb]
      exact ih (Nat.lt_of_succ_lt hn) u f

/-! ## What a grid point writes back -/

/-- The output block after point `t` is `outOf` of the point's blocks at the scratch's contents after `t`. -/
theorem out_eq (c : Dev nD) (t : Fin cfg0.N) :
    (outsAt0 m c t.val t.isLt).1
      = outOf (encBlk m c t) (otBlk m c t) (wencBlk m c t) (wotBlk m c t) (bencBlk m c t) (botBlk m c t)
          (woutBlk m c t) (boutBlk m c t) ((outsAt0 m c t.val t.isLt).2) := by
  by_cases h0 : t.val % 25 = 0
  · rw [outsAt0_A m c t h0]
    dsimp only
    rw [out_A, sout_A]
  · rw [outsAt0_B m c t h0]
    dsimp only
    rw [out_B]
    rfl

/-- The fused block of a point is the specification's `fusedAt` of the point's batch row and frames. -/
theorem fused_blk (c : Dev nD) (t : Fin cfg0.N) (r : Fin 8) (f : Fin 640) :
    fusedBlk (encBlk m c t) (otBlk m c t) (wencBlk m c t) (wotBlk m c t) (bencBlk m c t) (botBlk m c t) r f
      = Cert.Joint.fusedAt (encArr m c) (otArr m c) (wencArr m c) (wotArr m c) (bencArr m c) (botArr m c) (bOf t) (tOf t r) f := by
  have he : ∀ e : Fin 512, encBlk m c t (ix3 0 r e) * wencBlk m c t (ix2 e f)
      = encArr m c (ix3 (bOf t) (tOf t r) e) * wencArr m c (ix2 e f) := fun e => by
    rw [encBlk_apply, wencBlk_apply]
  have hd : ∀ d : Fin 512, otBlk m c t (ix3 0 r d) * wotBlk m c t (ix2 d f)
      = otArr m c (ix3 (bOf t) (tOf t r) d) * wotArr m c (ix2 d f) := fun d => by
    rw [otBlk_apply, wotBlk_apply]
  unfold fusedBlk Cert.Joint.fusedAt
  rw [bencBlk_apply, botBlk_apply, Finset.sum_congr rfl (fun e _ => he e), Finset.sum_congr rfl (fun d _ => hd d)]

/-- WHAT POINT `t` WRITES BACK is block `t` of the specification's logits. -/
theorem flushed_eq (c : Dev nD) (t : Fin cfg0.N) :
    (dats m 0 c).flushed 11 t = ((cfg0.win 11).blk t).view.read (Elt Ideal) (result m c) := by
  rw [Cert.KernelIdeal.Value.flushed11]
  funext j
  obtain ⟨a, r, u, v, rfl⟩ : ∃ (a : Fin 1) (r : Fin 8) (u : Fin 50) (v : Fin 1024), j = ix4 a r u v :=
    ⟨j 0, j 1, j 2, j 3, eq_ix4 j⟩
  obtain rfl : a = 0 := Subsingleton.elim _ _
  show (outsAt0 m c t.val t.isLt).1 (ix4 0 r u v) = result m c (((cfg0.win 11).blk t).view.emb (ix4 0 r u v))
  rw [outBlk_emb, out_eq, outOf_apply]
  show _ = Cert.Joint.logitAt (encArr m c) (decArr m c) (otArr m c) (wencArr m c) (bencArr m c) (wotArr m c) (botArr m c) (wdecArr m c) (bdecArr m c) (woutArr m c) (boutArr m c) (bOf t) (tOf t r) u v
  have hs : ∀ f : Fin 640,
      Ideal.tanh (fusedBlk (encBlk m c t) (otBlk m c t) (wencBlk m c t) (wotBlk m c t) (bencBlk m c t) (botBlk m c t) r f
          + (outsAt0 m c t.val t.isLt).2 (ix2 u f)) * woutBlk m c t (ix2 f v)
        = Ideal.tanh (Cert.Joint.fusedAt (encArr m c) (otArr m c) (wencArr m c) (wotArr m c) (bencArr m c) (botArr m c) (bOf t) (tOf t r) f
          + Cert.Joint.pdecAt (decArr m c) (wdecArr m c) (bdecArr m c) (bOf t) u f) * woutArr m c (ix2 f v) := fun f => by
    rw [fused_blk, woutBlk_apply, scratch_eq m c t.val t.isLt u f]
  unfold Cert.Joint.logitAt
  rw [Finset.sum_congr rfl (fun f _ => hs f), boutBlk_apply]

/-- The result array after the run. -/
theorem final (c : Dev nD) : (dats m 0 c).arrAt 11 cfg0.N = result m c :=
  (dats m 0 c).arrAt_eq_of_cover 11 (result m c) (fun t _ => flushed_eq m c t) Cert.KernelIdeal.Cover.cover

/-- The run, read: the result array at the specification's logits of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩)
    (Cert.KernelIdeal.Value.run_blocks m ρ)

end Cert.KernelIdeal.KValue

end
-- ==== Proof.lean ====
/-
  The joint network kernel against its reference, over the extended reals.

  The kernel tiles the 8 × 200 (batch row, encoder frame) plane into 200 grid points of 8 frames each. Per point it
  projects the encoder and guide blocks into the fusion space, adds to every fused row every row of the batch row's
  decoder projection (kept in a scratch from the row's first point on), takes the hyperbolic tangent, and multiplies
  the 400 resulting rows by the vocabulary matrix. The reference does the same with whole-array contractions and
  broadcasts. Both are, entry by entry, the specification's `logits` of the eleven arguments: the same finite sums of
  the same products in the same order, so no law beyond the definitions is needed and the finiteness of the inputs is
  never used. A change of float format is the identity on extended reals, and the kernel's idealization rewrote
  nothing.
-/
import proofs.«142737_j32908039422062_1_alg».proof.Defs
import proofs.«142737_j32908039422062_1_alg».proof.Proof.Gen.Kernel
import proofs.«142737_j32908039422062_1_alg».proof.Proof.Gen.Kernel.Skeleton
import proofs.«142737_j32908039422062_1_alg».proof.Proof.Gen.Kernel.Launch
import proofs.«142737_j32908039422062_1_alg».proof.Proof.Gen.Kernel.Points
import proofs.«142737_j32908039422062_1_alg».proof.Proof.Gen.Kernel.Frame
import proofs.«142737_j32908039422062_1_alg».proof.Proof.Gen.KernelIdeal
import proofs.«142737_j32908039422062_1_alg».proof.Proof.Gen.KernelIdeal.Skeleton
import proofs.«142737_j32908039422062_1_alg».proof.Proof.Gen.KernelIdeal.Launch
import proofs.«142737_j32908039422062_1_alg».proof.Proof.Gen.KernelIdeal.Points
import proofs.«142737_j32908039422062_1_alg».proof.Proof.Gen.KernelIdeal.Frame
import proofs.«142737_j32908039422062_1_alg».proof.Proof.Gen.ReferenceIdeal
import proofs.«142737_j32908039422062_1_alg».proof.Proof.Gen.Pre_finite_inputs
import proofs.«142737_j32908039422062_1_alg».proof.Proof.Gen.KernelIdeal.Value
import proofs.«142737_j32908039422062_1_alg».proof.Proof.Gen.ReferenceIdeal.Run
import proofs.«142737_j32908039422062_1_alg».proof.Proof.Gen.ReferenceIdeal.Read
import proofs.«142737_j32908039422062_1_alg».proof.Proof.RefValue
import proofs.«142737_j32908039422062_1_alg».proof.Proof.KernelValue
import Idealize.ShloMosaic.Adequacy
import Idealize.ShloMosaic.Init

noncomputable section

namespace Cert.Proof

open Idealize.ShloMosaic Idealize.SL.Sem

/-- At the extended reals the kernel's result array ends at the specification's logits of its arguments (the
    kernel's run read block by block), and the reference's at the same function of arguments that agree (the
    reference's run read operation by operation). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v22_eq, Cert.ReferenceIdeal.RefValue.ref_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
